-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S640x480 : Shape := ⟨2, ![640, 480]⟩
abbrev S_ : Shape := ⟨0, ![]⟩

class Facts : Prop where
  bcast_S_S640x480 : S_.BroadcastsInDim S640x480 (![] : Fin 0 → Fin S640x480.rank)
  reducesTo_S640x480_S_d0_1 : S640x480.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_v10 : IVec S_ 1) (main_v15 : IVec S16777216 1) (main_c_5 : IVec S_ 1) : IVec S_ 1 :=
  let main_v16 : IVec S_ 1 := (fun x v => Host.reduce IntOp.andi x v reducesTo_S16777216_S_d0 h_S_) main_v15 main_c_5
  let main_v17 : IVec S_ 1 := andi main_v10 main_v16
  main_v17

def fn {F : FTy → Type} [FloatOps F] (main_arg0 : IVec S16777216 32) (main_arg1 : IVec S16777216 32) (main_arg2 : IVec S16777216 32) (main_arg3 : FVec F S640x480 .f32) : IVec S_ 1 :=
  let main_v0 : FVec F S640x480 .f32 := Host.absf main_arg3
  let main_cst : FVec F S_ .f32 := constant S_ .f32 0x7F800000#32
  let main_v1 : FVec F S640x480 .f32 := broadcastInDim S640x480 ![] bcast_S_S640x480 main_cst
  let main_v2 : IVec S640x480 1 := cmpf .olt main_v0 main_v1
  let main_c : IVec S_ 1 := constantI S_ 1 1#1
  let main_v3 : IVec S_ 1 := (fun x v => Host.reduce IntOp.andi x v reducesTo_S640x480_S_d0_1 h_S_) main_v2 main_c
  let main_c_0 : IVec S_ 32 := constantI S_ 32 0#32
  let main_v4 : IVec S16777216 32 := broadcastInDim S16777216 ![] bcast_S_S16777216 main_c_0
  let main_v5 : IVec S16777216 1 := cmpi .sge main_arg0 main_v4
  let main_c_1 : IVec S_ 32 := constantI S_ 32 640#32
  let main_v6 : IVec S16777216 32 := broadcastInDim S16777216 ![] bcast_S_S16777216 main_c_1
  let main_v7 : IVec S16777216 1 := cmpi .slt main_arg0 main_v6
  let main_v8 : IVec S16777216 1 := andi main_v5 main_v7
  let main_c_2 : IVec S_ 1 := constantI S_ 1 1#1
  let main_v9 : IVec S_ 1 := (fun x v => Host.reduce IntOp.andi x v reducesTo_S16777216_S_d0 h_S_) main_v8 main_c_2
  let main_v10 : IVec S_ 1 := andi main_v3 main_v9
  let main_c_3 : IVec S_ 32 := constantI S_ 32 0#32
  let main_v11 : IVec S16777216 32 := broadcastInDim S16777216 ![] bcast_S_S16777216 main_c_3
  let main_v12 : IVec S16777216 1 := cmpi .sge main_arg1 main_v11
  let main_c_4 : IVec S_ 32 := constantI S_ 32 480#32
  let main_v13 : IVec S16777216 32 := broadcastInDim S16777216 ![] bcast_S_S16777216 main_c_4
  let main_v14 : IVec S16777216 1 := cmpi .slt main_arg1 main_v13
  let main_v15 : IVec S16777216 1 := andi main_v12 main_v14
  let main_c_5 : IVec S_ 1 := constantI S_ 1 1#1
  fn_part1 (F := F) main_v10 main_v15 main_c_5
-- ==== Kernel.lean ====
abbrev S16777216 : Shape := ⟨1, ![16777216]⟩
abbrev S640x480 : Shape := ⟨2, ![640, 480]⟩
abbrev S2x2x640x480 : Shape := ⟨4, ![2, 2, 640, 480]⟩
abbrev S2048 : Shape := ⟨1, ![2048]⟩
abbrev S1x2x640x480 : Shape := ⟨4, ![1, 2, 640, 480]⟩
abbrev S2x640x480 : Shape := ⟨3, ![2, 640, 480]⟩
abbrev S640x2048 : Shape := ⟨2, ![640, 2048]⟩
abbrev S1x2048 : Shape := ⟨2, ![1, 2048]⟩
abbrev S1x480 : Shape := ⟨2, ![1, 480]⟩
abbrev S2048x1 : Shape := ⟨2, ![2048, 1]⟩
abbrev S2048x480 : Shape := ⟨2, ![2048, 480]⟩
abbrev S1x640x480 : Shape := ⟨3, ![1, 640, 480]⟩

abbrev nBuf : Space → Nat
  | .hbm => 6
  | .vmem => 12
  | .smem => 0
  | _ => 0

abbrev bufTy : (tb : Table) → Fin (tcTables nBuf tb) → BufTy
  | .hbm, ⟨0, _⟩ => ⟨S16777216, .i32⟩
  | .hbm, ⟨1, _⟩ => ⟨S16777216, .i32⟩
  | .hbm, ⟨2, _⟩ => ⟨S16777216, .i32⟩
  | .hbm, ⟨3, _⟩ => ⟨S640x480, .f32⟩
  | .hbm, ⟨4, _⟩ => ⟨S2x2x640x480, .f32⟩
  | .hbm, ⟨5, _⟩ => ⟨S640x480, .f32⟩
  | .local _ .vmem, ⟨0, _⟩ => ⟨S2048, .i32⟩
  | .local _ .vmem, ⟨1, _⟩ => ⟨S2048, .i32⟩
  | .local _ .vmem, ⟨2, _⟩ => ⟨S2048, .i32⟩
  | .local _ .vmem, ⟨3, _⟩ => ⟨S2048, .i32⟩
  | .local _ .vmem, ⟨4, _⟩ => ⟨S2048, .i32⟩
  | .local _ .vmem, ⟨5, _⟩ => ⟨S2048, .i32⟩
  | .local _ .vmem, ⟨6, _⟩ => ⟨S1x2x640x480, .f32⟩
  | .local _ .vmem, ⟨7, _⟩ => ⟨S1x2x640x480, .f32⟩
  | .local _ .vmem, ⟨8, _⟩ => ⟨S2x640x480, .f32⟩
  | .local _ .vmem, ⟨9, _⟩ => ⟨S2x2x640x480, .f32⟩
  | .local _ .vmem, ⟨10, _⟩ => ⟨S640x480, .f32⟩
  | .local _ .vmem, ⟨11, _⟩ => ⟨S640x480, .f32⟩
  | _, _ => ⟨S16777216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨2, ![2, 4096], ![false, false]⟩

def k0_cond2 (i : grid0.Coords) : BitVec 1 :=
  let arg1 : BitVec 32 := BitVec.ofNat 32 (i 1).val
  let c4095_i32 : BitVec 32 := 4095#32
  let v48 : BitVec 1 := Scalar.cmpi .eq arg1 c4095_i32
  let v49 : BitVec 32 := Scalar.extui v48
  let c0_i32_17 : BitVec 32 := 0#32
  let v50 : BitVec 1 := Scalar.cmpi .ne v49 c0_i32_17
  v50

def cc0_transform_0 (i : grid0.Coords) : Fin 1 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let v1 : BitVec 32 := Scalar.addi v0 arg1
  let c0_i32 : BitVec 32 := 0#32
  ![v1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x640x480 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x2x640x480 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S640x480 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S640x480 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S2x640x480_S2x640x480_0_0_0 : ∀ a, (![0, 0, 0] : Fin 3 → Nat) a + S2x640x480.size a ≤ S2x640x480.size a
  h_S2x640x480 : 0 < S2x640x480.numel
  shapeCasts_S2x640x480_S2x640x480 : S2x640x480.ShapeCasts S2x640x480
  inb_S2048_S2048_0 : ∀ a, (![0] : Fin 1 → Nat) a + S2048.size a ≤ S2048.size a
  h_S2048 : 0 < S2048.numel
  iota_S640x2048_d0_w32 : S640x2048.Iotas .tc 32 [0]
  shapeCasts_S2048_S1x2048 : S2048.ShapeCasts S1x2048
  broadcasts_S1x2048_S640x2048 : S1x2048.Broadcasts S640x2048
  natLt_1_32 : 1 < 32
  bitsLt_bf16_f32 : FTy.bits .bf16 < FTy.bits .f32
  iota_S1x480_d1_w32 : S1x480.Iotas .tc 32 [1]
  shapeCasts_S2048_S2048x1 : S2048.ShapeCasts S2048x1
  broadcasts_S2048x1_S2048x480 : S2048x1.Broadcasts S2048x480
  broadcasts_S1x480_S2048x480 : S1x480.Broadcasts S2048x480
  inb_S2x640x480_S1x640x480_0_0_0 : ∀ a, (![0, 0, 0] : Fin 3 → Nat) a + S1x640x480.size a ≤ S2x640x480.size a
  h_S1x640x480 : 0 < S1x640x480.numel
  shapeCasts_S1x640x480_S640x480 : S1x640x480.ShapeCasts S640x480
  shapeCasts_S640x480_S1x640x480 : S640x480.ShapeCasts S1x640x480
  inb_S2x640x480_S1x640x480_1_0_0 : ∀ a, (![1, 0, 0] : Fin 3 → Nat) a + S1x640x480.size a ≤ S2x640x480.size a
  shapeCasts_S2x640x480_S1x2x640x480 : S2x640x480.ShapeCasts S1x2x640x480
  inb_S1x2x640x480_S1x2x640x480_0_0_0_0 : ∀ a, (![0, 0, 0, 0] : Fin 4 → Nat) a + S1x2x640x480.size a ≤ S1x2x640x480.size a
  h_S1x2x640x480 : 0 < S1x2x640x480.numel
  inb_S2x2x640x480_S1x2x640x480_0_0_0_0 : ∀ a, (![0, 0, 0, 0] : Fin 4 → Nat) a + S1x2x640x480.size a ≤ S2x2x640x480.size a
  shapeCasts_S1x2x640x480_S2x640x480 : S1x2x640x480.ShapeCasts S2x640x480
  inb_S2x2x640x480_S1x2x640x480_1_0_0_0 : ∀ a, (![1, 0, 0, 0] : Fin 4 → Nat) a + S1x2x640x480.size a ≤ S2x2x640x480.size a
  slices_S2x640x480_o0_0_0_S1x640x480 : S2x640x480.Slices ![0, 0, 0] S1x640x480
  slices_S2x640x480_o1_0_0_S1x640x480 : S2x640x480.Slices ![1, 0, 0] S1x640x480
  inb_S640x480_S640x480_0_0 : ∀ a, (![0, 0] : Fin 2 → Nat) a + S640x480.size a ≤ S640x480.size a
  h_S640x480 : 0 < S640x480.numel
  dot_S640x2048_S2048x480_S640x480_1_0_0_1_n_n_wf : DotDims.WF S640x2048 S2048x480 S640x480 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S16777216.size a
  hwx0_0 : ∀ i : grid0.Coords, EltTy.bits .i32 = 32 ∨ (Rect.block (s := S16777216) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S16777216.size a
  hwx0_1 : ∀ i : grid0.Coords, EltTy.bits .i32 = 32 ∨ (Rect.block (s := S16777216) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S16777216.size a
  hwx0_2 : ∀ i : grid0.Coords, EltTy.bits .i32 = 32 ∨ (Rect.block (s := S16777216) S2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x640x480.size a ≤ S2x2x640x480.size a
  hwx0_3 : ∀ i : grid0.Coords, EltTy.bits .f32 = 32 ∨ (Rect.block (s := S2x2x640x480) S1x2x640x480.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x2x640x480.size a ≤ S2x2x640x480.size a
  hwx1_0 : ∀ i : grid1.Coords, EltTy.bits .f32 = 32 ∨ (Rect.block (s := S2x2x640x480) S2x2x640x480.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x480.size a ≤ S640x480.size a
  hwx1_1 : ∀ i : grid1.Coords, EltTy.bits .f32 = 32 ∨ (Rect.block (s := S640x480) S640x480.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S640x480.size a ≤ S640x480.size a
  hwx1_2 : ∀ i : grid1.Coords, EltTy.bits .f32 = 32 ∨ (Rect.block (s := S640x480) S640x480.size (cc1_transform_2 i) (hinb1_2 i)).WholeWords (EltTy.packing .f32)

variable [Facts₀]

def dot_S640x2048_S2048x480_S640x480_1_0_0_1_n_n : DotDims S640x2048 S2048x480 S640x480 where
  lhsContracting := [1]
  rhsContracting := [0]
  lhsNonContracting := [0]
  rhsNonContracting := [1]
  lhsBatch := []
  rhsBatch := []
  wf := dot_S640x2048_S2048x480_S640x480_1_0_0_1_n_n_wf

abbrev win0_0 : Pipeline.Window sig grid0 :=
  Pipeline.Window.ofSpec (Memref.whole main_arg0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2x640x480.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S2x2x640x480.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S640x480.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S640x480.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16777216 : Shape := ⟨1, ![16777216]⟩
abbrev S640x480 : Shape := ⟨2, ![640, 480]⟩
abbrev S_ : Shape := ⟨0, ![]⟩
abbrev S16777216x1 : Shape := ⟨2, ![16777216, 1]⟩
abbrev S16777216x2 : Shape := ⟨2, ![16777216, 2]⟩

abbrev nBuf : Space → Nat
  | .hbm => 59
  | .vmem => 0
  | .smem => 0
  | _ => 0

abbrev bufTy : (tb : Table) → Fin (tcTables nBuf tb) → BufTy
  | .hbm, ⟨0, _⟩ => ⟨S16777216, .i32⟩
  | .hbm, ⟨1, _⟩ => ⟨S16777216, .i32⟩
  | .hbm, ⟨2, _⟩ => ⟨S16777216, .i32⟩
  | .hbm, ⟨3, _⟩ => ⟨S640x480, .f32⟩
  | .hbm, ⟨4, _⟩ => ⟨S_, .i32⟩
  | .hbm, ⟨5, _⟩ => ⟨S640x480, .i32⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S16777216, .i32⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S_, .i32⟩
  | .hbm, ⟨17, _⟩ => ⟨S16777216, .i32⟩
  | .hbm, ⟨18, _⟩ => ⟨S16777216, .i32⟩
  | .hbm, ⟨19, _⟩ => ⟨S16777216, .i32⟩
  | .hbm, ⟨20, _⟩ => ⟨S_, .i32⟩
  | .hbm, ⟨21, _⟩ => ⟨S16777216, .i32⟩
  | .hbm, ⟨22, _⟩ => ⟨S16777216, .i1⟩
  | .hbm, ⟨23, _⟩ => ⟨S_, .i32⟩
  | .hbm, ⟨24, _⟩ => ⟨S16777216, .i32⟩
  | .hbm, ⟨25, _⟩ => ⟨S16777216, .i32⟩
  | .hbm, ⟨26, _⟩ => ⟨S16777216, .i32⟩
  | .hbm, ⟨27, _⟩ => ⟨S16777216x1, .i32⟩
  | .hbm, ⟨28, _⟩ => ⟨S16777216x1, .i32⟩
  | .hbm, ⟨29, _⟩ => ⟨S16777216x2, .i32⟩
  | .hbm, ⟨30, _⟩ => ⟨S640x480, .i32⟩
  | .hbm, ⟨31, _⟩ => ⟨S_, .i32⟩
  | .hbm, ⟨32, _⟩ => ⟨S16777216, .i32⟩
  | .hbm, ⟨33, _⟩ => ⟨S16777216, .i1⟩
  | .hbm, ⟨34, _⟩ => ⟨S_, .i32⟩
  | .hbm, ⟨35, _⟩ => ⟨S16777216, .i32⟩
  | .hbm, ⟨36, _⟩ => ⟨S16777216, .i32⟩
  | .hbm, ⟨37, _⟩ => ⟨S16777216, .i32⟩
  | .hbm, ⟨38, _⟩ => ⟨S_, .i32⟩
  | .hbm, ⟨39, _⟩ => ⟨S16777216, .i32⟩
  | .hbm, ⟨40, _⟩ => ⟨S16777216, .i1⟩
  | .hbm, ⟨41, _⟩ => ⟨S_, .i32⟩
  | .hbm, ⟨42, _⟩ => ⟨S16777216, .i32⟩
  | .hbm, ⟨43, _⟩ => ⟨S16777216, .i32⟩
  | .hbm, ⟨44, _⟩ => ⟨S16777216, .i32⟩
  | .hbm, ⟨45, _⟩ => ⟨S16777216x1, .i32⟩
  | .hbm, ⟨46, _⟩ => ⟨S16777216x1, .i32⟩
  | .hbm, ⟨47, _⟩ => ⟨S16777216x2, .i32⟩
  | .hbm, ⟨48, _⟩ => ⟨S640x480, .i32⟩
  | .hbm, ⟨49, _⟩ => ⟨S640x480, .f32⟩
  | .hbm, ⟨50, _⟩ => ⟨S_, .f32⟩
  | .hbm, ⟨51, _⟩ => ⟨S640x480, .f32⟩
  | .hbm, ⟨52, _⟩ => ⟨S640x480, .f32⟩
  | .hbm, ⟨53, _⟩ => ⟨S640x480, .f32⟩
  | .hbm, ⟨54, _⟩ => ⟨S640x480, .f32⟩
  | .hbm, ⟨55, _⟩ => ⟨S_, .f32⟩
  | .hbm, ⟨56, _⟩ => ⟨S640x480, .f32⟩
  | .hbm, ⟨57, _⟩ => ⟨S640x480, .f32⟩
  | .hbm, ⟨58, _⟩ => ⟨S640x480, .f32⟩
  | _, _ => ⟨S16777216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S640x480 : S_.BroadcastsInDim S640x480 (![] : Fin 0 → Fin S640x480.rank)
  bcast_S_S16777216 : S_.BroadcastsInDim S16777216 (![] : Fin 0 → Fin S16777216.rank)
  natLt_1_32 : 1 < 32
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  scatter_S640x480_S16777216x2_S16777216_n_01_01_1_wf : ScatterDims.WF S640x480 S16777216x2 S16777216 [] [0, 1] [0, 1] 1

variable [Facts₀]

def scatter_S640x480_S16777216x2_S16777216_n_01_01_1 : ScatterDims S640x480 S16777216x2 S16777216 where
  updateWindowDims := []
  insertedWindowDims := [0, 1]
  scatterDimsToOperandDims := [0, 1]
  indexVectorDim := 1
  wf := scatter_S640x480_S16777216x2_S16777216_n_01_01_1_wf

class Facts : Prop extends Facts₀ where

variable [Facts]
-- ==== Proof.HistSpec.lean ====
/-
  The function both programs compute, stated once over the four argument arrays.

  An event `e` carries a pixel `(x e, y e)` and a polarity word `p e`. For a pixel `(r, w)` let
  `cntNeg` be the number of events at that pixel whose polarity word is zero and `cntPos` the number
  whose polarity word is not zero. The result at `(r, w)` is

      (pic (r, w) - 15 · [0 < cntNeg]) + 15 · [0 < cntPos]

  with `[·]` the word 1 or 0 converted to a float. The histogram kernel reaches the two indicators by
  COUNTING (sums of products of one-hot rows, chunk by chunk, then a comparison with zero); the reference by
  a scatter that keeps the MAXIMUM of the 0/1 updates landing on a pixel. A count is positive exactly
  when some event lands there, which is exactly when that maximum is 1.
-/
import Idealize.ShloMosaic.PureOps.Ideal
import Idealize.ShloMosaic.Lib.ValueIdx
import Mathlib.Data.Fintype.Card
import Mathlib.Data.Finset.Card

noncomputable section

namespace Cert.Hist

open Idealize.ShloMosaic

/-- The word 1 when `P` holds, else the word 0. -/
def bit32 (P : Prop) [Decidable P] : BitVec 32 := if P then 1#32 else 0#32

/-- Event `e` lies at pixel `(r, w)`: its two coordinate words, read as naturals, are `r` and `w`. -/
def hits {n : ℕ} (x y : Fin n → BitVec 32) (r w : ℕ) (e : Fin n) : Prop :=
  (x e).toNat = r ∧ (y e).toNat = w

instance {n : ℕ} (x y : Fin n → BitVec 32) (r w : ℕ) (e : Fin n) : Decidable (hits x y r w e) := by
  unfold hits; infer_instance

/-- How many of the `n` events lie at `(r, w)` with polarity word zero. -/
def cntNeg {n : ℕ} (x y p : Fin n → BitVec 32) (r w : ℕ) : ℕ :=
  (Finset.univ.filter fun e : Fin n => hits x y r w e ∧ p e = 0#32).card

/-- How many of the `n` events lie at `(r, w)` with a nonzero polarity word. -/
def cntPos {n : ℕ} (x y p : Fin n → BitVec 32) (r w : ℕ) : ℕ :=
  (Finset.univ.filter fun e : Fin n => hits x y r w e ∧ p e ≠ 0#32).card

/-- A rank-1 array of `n` words as a function of the event number. -/
def ev {n : ℕ} (a : IVec (⟨1, ![n]⟩ : Shape) 32) : Fin n → BitVec 32 := fun e => a (ValueIdx.ix1 e)

/-- Every word of `a`, read as a SIGNED integer, lies in `[0, N)`: an index into an axis of extent `N`. -/
def InRange {n : ℕ} (a : Fin n → BitVec 32) (N : ℕ) : Prop := ∀ e, 0 ≤ (a e).toInt ∧ (a e).toInt < (N : ℤ)

theorem chunk_lt {T n : ℕ} (t : Fin T) (l : Fin n) : t.val * n + l.val < T * n :=
  calc t.val * n + l.val < t.val * n + n := Nat.add_lt_add_left l.isLt _
    _ = (t.val + 1) * n := (Nat.succ_mul _ _).symm
    _ ≤ T * n := Nat.mul_le_mul_right n t.isLt

/-- Chunk `t` of `T` consecutive chunks of `n` events each: events `t·n … t·n + n − 1`. -/
def chunk {N : ℕ} (T n : ℕ) (hN : N = T * n) (a : Fin N → BitVec 32) (t : Fin T) : Fin n → BitVec 32 :=
  fun l => a ⟨t.val * n + l.val, hN ▸ chunk_lt t l⟩

/-- The float fifteen, as both programs spell it. -/
abbrev c15 : Ideal .f32 := Ideal.ofBits .f32 0x41700000#32

/-- The result array: at pixel `j = (r, w)`, the picture's value less fifteen if some zero-polarity event
    lies there, plus fifteen if some nonzero-polarity event lies there. -/
def G (a0 a1 a2 : IVec (⟨1, ![16777216]⟩ : Shape) 32) (a3 : FVec Ideal (⟨2, ![640, 480]⟩ : Shape) .f32) :
    FVec Ideal (⟨2, ![640, 480]⟩ : Shape) .f32 := fun j =>
  (a3 j - c15 * FloatOps.sitofp (F := Ideal) .f32 (bit32 (0 < cntNeg (ev a0) (ev a1) (ev a2) (j 0).val (j 1).val)))
    + c15 * FloatOps.sitofp (F := Ideal) .f32 (bit32 (0 < cntPos (ev a0) (ev a1) (ev a2) (j 0).val (j 1).val))

end Cert.Hist

end
-- ==== Proof.CountLaws.lean ====
/-
  Counting laws for the two event counts.

  The events `0 … T·n − 1` split into `T` consecutive chunks of `n`: the event numbered `t·n + l` is
  event `l` of chunk `t`, and `(t, l) ↦ t·n + l` is a bijection from `Fin T × Fin n` onto `Fin (T·n)`.
  So the number of events with a property is the sum over the chunks of the number inside each chunk.
  A count is positive exactly when some event has the property. Sums over `8192` chunks split into the
  sums over the first and the last `4096`, and a sum over the first `K` naturals is reached by the
  recursion `psum f (k+1) = psum f k + f k`, which casts to the extended reals term by term.
-/
import proofs.«419753_j13322988552663_3_alg».proof.Proof.HistSpec
import Mathlib.Algebra.BigOperators.Fin
import Mathlib.Algebra.BigOperators.Group.Finset.Piecewise
import Mathlib.Data.Fintype.BigOperators
import Mathlib.Logic.Equiv.Fin.Basic
import Mathlib.Data.Finset.Card
import Mathlib.Data.Finset.Filter
import Mathlib.Data.EReal.Basic

namespace Cert.Hist

/-- The number of indices of `Fin (T·n)` with property `P` is the sum over the `T` chunks of the number of
    positions `l` of the chunk whose index `t·n + l` has the property. The chunkwise property `Q t l` is any
    proposition equivalent to `P (t·n + l)`. -/
theorem card_filter_chunks {N : ℕ} (T n : ℕ) (hN : N = T * n) (P : Fin N → Prop) [DecidablePred P]
    (Q : Fin T → Fin n → Prop) [∀ t, DecidablePred (Q t)]
    (hQ : ∀ (t : Fin T) (l : Fin n), Q t l ↔ P ⟨t.val * n + l.val, hN ▸ chunk_lt t l⟩) :
    (Finset.univ.filter P).card = ∑ t : Fin T, (Finset.univ.filter (Q t)).card := by
  subst hN
  simp only [Finset.card_filter]
  -- reindex the sum over `Fin (T·n)` by the pairs `(t, l)`, then sum the pairs row by row
  rw [← (finProdFinEquiv (m := T) (n := n)).sum_comp, Fintype.sum_prod_type]
  refine Finset.sum_congr rfl fun t _ => Finset.sum_congr rfl fun l _ => ?_
  have hidx : (finProdFinEquiv (t, l) : Fin (T * n)) = ⟨t.val * n + l.val, chunk_lt t l⟩ := by
    apply Fin.ext
    show l.val + n * t.val = t.val * n + l.val
    rw [Nat.mul_comm, Nat.add_comm]
  rw [hidx]
  exact if_congr (hQ t l).symm rfl rfl

theorem cntNeg_chunks {N : ℕ} (T n : ℕ) (hN : N = T * n) (x y p : Fin N → BitVec 32) (r w : ℕ) :
    cntNeg x y p r w
      = ∑ t : Fin T, cntNeg (chunk T n hN x t) (chunk T n hN y t) (chunk T n hN p t) r w :=
  card_filter_chunks T n hN _ _ fun _ _ => Iff.rfl

theorem cntPos_chunks {N : ℕ} (T n : ℕ) (hN : N = T * n) (x y p : Fin N → BitVec 32) (r w : ℕ) :
    cntPos x y p r w
      = ∑ t : Fin T, cntPos (chunk T n hN x t) (chunk T n hN y t) (chunk T n hN p t) r w :=
  card_filter_chunks T n hN _ _ fun _ _ => Iff.rfl

/-- A count is positive exactly when the counted set has a member. -/
theorem cntNeg_pos_iff {n : ℕ} (x y p : Fin n → BitVec 32) (r w : ℕ) :
    0 < cntNeg x y p r w ↔ ∃ e, hits x y r w e ∧ p e = 0#32 := by
  unfold cntNeg
  rw [Finset.card_pos, Finset.filter_nonempty_iff]
  exact ⟨fun ⟨e, _, h⟩ => ⟨e, h⟩, fun ⟨e, h⟩ => ⟨e, Finset.mem_univ e, h⟩⟩

theorem cntPos_pos_iff {n : ℕ} (x y p : Fin n → BitVec 32) (r w : ℕ) :
    0 < cntPos x y p r w ↔ ∃ e, hits x y r w e ∧ p e ≠ 0#32 := by
  unfold cntPos
  rw [Finset.card_pos, Finset.filter_nonempty_iff]
  exact ⟨fun ⟨e, _, h⟩ => ⟨e, h⟩, fun ⟨e, h⟩ => ⟨e, Finset.mem_univ e, h⟩⟩

/-- A sum over `8192 = 4096 + 4096` indices is the sum over the first `4096` plus the sum over the last. -/
theorem sum_halves (f : Fin 8192 → ℕ) :
    ∑ t : Fin 8192, f t
      = (∑ k : Fin 4096, f ⟨k.val, by omega⟩) + ∑ k : Fin 4096, f ⟨4096 + k.val, by omega⟩ :=
  Fin.sum_univ_add (a := 4096) (b := 4096) f

/-- The sum of `f 0, …, f (k − 1)`, by recursion on `k`. -/
def psum (f : ℕ → ℕ) : ℕ → ℕ
  | 0 => 0
  | k + 1 => psum f k + f k

theorem psum_eq_sum (f : ℕ → ℕ) (K : ℕ) : psum f K = ∑ k : Fin K, f k.val := by
  induction K with
  | zero => simp [psum]
  | succ K ih => rw [psum, ih, Fin.sum_univ_castSucc]; rfl

theorem cast_psum_succ (f : ℕ → ℕ) (k : ℕ) :
    ((psum f (k + 1) : ℕ) : EReal) = ((psum f k : ℕ) : EReal) + ((f k : ℕ) : EReal) := by
  rw [psum, Nat.cast_add]

theorem ereal_zero_add_nat (a : ℕ) : (0 : EReal) + ((a : ℕ) : EReal) = ((a : ℕ) : EReal) :=
  zero_add _

end Cert.Hist
-- ==== Proof.AccLaws.lean ====
/-
  The accumulator's recursion and the two halves of the chunk grid.

  The grid has `8192` points `n = h·4096 + k` (`h < 2`, `k < 4096`); point `n` sees chunk `n` of `2048` events.
  An accumulator `A` that is reset to zero and given the chunk's count wherever `n % P = 0`, and elsewhere
  adds the chunk's count onto what the point before left, holds at point `n` the sum of the counts of the
  points `⌊n/P⌋·P, …, n` — the partial sum of length `n % P + 1` starting at the last reset. At the last
  point of each half (`n = 4095` and `n = 8191`, with `P = 4096`) this is the whole half, and the two halves
  together are all `8192` chunks, whose counts add up to the count over all `8192 · 2048` events.
-/
import proofs.«419753_j13322988552663_3_alg».proof.Proof.HistSpec
import proofs.«419753_j13322988552663_3_alg».proof.Proof.CountLaws
import Mathlib.Data.EReal.Basic
import Mathlib.Tactic.NormNum.Basic

namespace Cert.Hist

theorem hN : (16777216 : ℕ) = 8192 * 2048 := by norm_num

/-- The count of chunk `n` (of `2048` events) at pixel `(r, w)` among the zero-polarity events; zero past the
    last chunk. -/
def chunkCntNeg (x y p : Fin 16777216 → BitVec 32) (r w n : ℕ) : ℕ :=
  if h : n < 8192 then
    cntNeg (chunk 8192 2048 hN x ⟨n, h⟩) (chunk 8192 2048 hN y ⟨n, h⟩) (chunk 8192 2048 hN p ⟨n, h⟩) r w
  else 0

/-- The count of chunk `n` (of `2048` events) at pixel `(r, w)` among the nonzero-polarity events; zero past
    the last chunk. -/
def chunkCntPos (x y p : Fin 16777216 → BitVec 32) (r w n : ℕ) : ℕ :=
  if h : n < 8192 then
    cntPos (chunk 8192 2048 hN x ⟨n, h⟩) (chunk 8192 2048 hN y ⟨n, h⟩) (chunk 8192 2048 hN p ⟨n, h⟩) r w
  else 0

theorem chunkCntNeg_of_lt (x y p : Fin 16777216 → BitVec 32) (r w n : ℕ) (h : n < 8192) :
    chunkCntNeg x y p r w n
      = cntNeg (chunk 8192 2048 hN x ⟨n, h⟩) (chunk 8192 2048 hN y ⟨n, h⟩) (chunk 8192 2048 hN p ⟨n, h⟩) r w :=
  dif_pos h

theorem chunkCntPos_of_lt (x y p : Fin 16777216 → BitVec 32) (r w n : ℕ) (h : n < 8192) :
    chunkCntPos x y p r w n
      = cntPos (chunk 8192 2048 hN x ⟨n, h⟩) (chunk 8192 2048 hN y ⟨n, h⟩) (chunk 8192 2048 hN p ⟨n, h⟩) r w :=
  dif_pos h

theorem cast_add_nat (a b : ℕ) : ((a : ℕ) : EReal) + ((b : ℕ) : EReal) = ((a + b : ℕ) : EReal) :=
  (Nat.cast_add a b).symm

/-- When `P` does not divide `m + 1`, the points `m` and `m + 1` lie in the same block of `P` and `m + 1` is one
    further along it. -/
theorem succ_div_mod_of_mod_ne_zero (m P : ℕ) (hm : (m + 1) % P ≠ 0) :
    m / P = (m + 1) / P ∧ m % P + 1 = (m + 1) % P := by
  have hd : (m + 1) / P = m / P :=
    Nat.succ_div_of_not_dvd fun hdvd => hm (Nat.mod_eq_zero_of_dvd hdvd)
  have e1 := Nat.div_add_mod m P
  have e2 := Nat.div_add_mod (m + 1) P
  rw [hd] at e2
  exact ⟨hd.symm, by omega⟩

/-- The accumulator's value on the points below `N`: the partial sum since the last reset. -/
theorem acc_psum_lt (A : ℕ → EReal) (g : ℕ → ℕ) (P : ℕ) (hP : 0 < P) (N : ℕ)
    (h0 : ∀ n, n < N → n % P = 0 → A n = 0 + ((g n : ℕ) : EReal))
    (hs : ∀ n, n < N → n % P ≠ 0 → A n = A (n - 1) + ((g n : ℕ) : EReal)) :
    ∀ n, n < N → A n = ((psum (fun k => g (n / P * P + k)) (n % P + 1) : ℕ) : EReal) := by
  intro n
  induction n with
  | zero =>
    intro hn
    rw [h0 0 hn (Nat.zero_mod P), Nat.zero_mod, Nat.zero_div, Nat.zero_mul, cast_psum_succ]
    show _ = ((0 : ℕ) : EReal) + ((g (0 + 0) : ℕ) : EReal)
    rw [Nat.cast_zero, Nat.add_zero]
  | succ m ih =>
    intro hn
    by_cases hm : (m + 1) % P = 0
    · -- a reset point: the block starts here and the partial sum has the single term `g (m + 1)`
      have hdiv : (m + 1) / P * P = m + 1 := Nat.div_mul_cancel (Nat.dvd_of_mod_eq_zero hm)
      rw [h0 _ hn hm, hm, hdiv, cast_psum_succ]
      show _ = ((0 : ℕ) : EReal) + ((g (m + 1 + 0) : ℕ) : EReal)
      rw [Nat.cast_zero, Nat.add_zero]
    · -- inside a block: one more term on the partial sum the point before left
      obtain ⟨h1, h2⟩ := succ_div_mod_of_mod_ne_zero m P hm
      have e : m + 1 = m / P * P + (m % P + 1) := by
        have := Nat.div_add_mod' m P
        omega
      rw [hs _ hn hm, Nat.add_sub_cancel, ih (Nat.lt_of_succ_lt hn), ← h1, ← h2,
        cast_psum_succ (fun k => g (m / P * P + k)) (m % P + 1)]
      show _ + ((g (m + 1) : ℕ) : EReal) = _ + ((g (m / P * P + (m % P + 1)) : ℕ) : EReal)
      rw [← e]

/-- The accumulator's value at every point: the partial sum since the last reset. -/
theorem acc_psum (A : ℕ → EReal) (g : ℕ → ℕ) (P : ℕ) (hP : 0 < P)
    (h0 : ∀ n, n % P = 0 → A n = 0 + ((g n : ℕ) : EReal))
    (hs : ∀ n, n % P ≠ 0 → A n = A (n - 1) + ((g n : ℕ) : EReal)) :
    ∀ n, A n = ((psum (fun k => g (n / P * P + k)) (n % P + 1) : ℕ) : EReal) :=
  fun n => acc_psum_lt A g P hP (n + 1) (fun k _ => h0 k) (fun k _ => hs k) n (Nat.lt_succ_self n)

theorem div_0 : 0 / 4096 * 4096 = 0 := by norm_num
theorem div_4095 : 4095 / 4096 * 4096 = 0 := by norm_num
theorem div_8191 : 8191 / 4096 * 4096 = 4096 := by norm_num
theorem mod_4095 : 4095 % 4096 + 1 = 4096 := by norm_num
theorem mod_8191 : 8191 % 4096 + 1 = 4096 := by norm_num

/-- If `c n` is the `n`-th of `8192` terms, the partial sums of `c` over the first and the last `4096` points add
    up to the sum of all the terms. -/
theorem psum_halves (c : ℕ → ℕ) (f : Fin 8192 → ℕ) (hc : ∀ (n : ℕ) (h : n < 8192), c n = f ⟨n, h⟩) :
    psum (fun k => c (0 / 4096 * 4096 + k)) 4096 + psum (fun k => c (8191 / 4096 * 4096 + k)) 4096
      = ∑ t : Fin 8192, f t := by
  rw [div_0, div_8191, psum_eq_sum, psum_eq_sum, sum_halves]
  have hA : ∀ k : Fin 4096, c (0 + k.val) = f ⟨k.val, by have := k.isLt; omega⟩ := fun k => by
    rw [Nat.zero_add]
    exact hc k.val _
  have hB : ∀ k : Fin 4096, c (4096 + k.val) = f ⟨4096 + k.val, by have := k.isLt; omega⟩ :=
    fun k => hc _ _
  simp only [hA, hB]

theorem halves_neg (x y p : Fin 16777216 → BitVec 32) (r w : ℕ) :
    psum (fun k => chunkCntNeg x y p r w (0 / 4096 * 4096 + k)) 4096
      + psum (fun k => chunkCntNeg x y p r w (8191 / 4096 * 4096 + k)) 4096 = cntNeg x y p r w :=
  (psum_halves _ _ fun n h => chunkCntNeg_of_lt x y p r w n h).trans
    (cntNeg_chunks 8192 2048 hN x y p r w).symm

theorem halves_pos (x y p : Fin 16777216 → BitVec 32) (r w : ℕ) :
    psum (fun k => chunkCntPos x y p r w (0 / 4096 * 4096 + k)) 4096
      + psum (fun k => chunkCntPos x y p r w (8191 / 4096 * 4096 + k)) 4096 = cntPos x y p r w :=
  (psum_halves _ _ fun n h => chunkCntPos_of_lt x y p r w n h).trans
    (cntPos_chunks 8192 2048 hN x y p r w).symm

/-- The same with the two partial sums written as the accumulator's law gives them at the points `4095` and
    `8191`. -/
theorem halves_neg_acc (x y p : Fin 16777216 → BitVec 32) (r w : ℕ) :
    psum (fun k => chunkCntNeg x y p r w (4095 / 4096 * 4096 + k)) (4095 % 4096 + 1)
      + psum (fun k => chunkCntNeg x y p r w (8191 / 4096 * 4096 + k)) (8191 % 4096 + 1)
      = cntNeg x y p r w := by
  have h := halves_neg x y p r w
  rw [div_0] at h
  rw [mod_4095, div_4095]
  exact h

theorem halves_pos_acc (x y p : Fin 16777216 → BitVec 32) (r w : ℕ) :
    psum (fun k => chunkCntPos x y p r w (4095 / 4096 * 4096 + k)) (4095 % 4096 + 1)
      + psum (fun k => chunkCntPos x y p r w (8191 / 4096 * 4096 + k)) (8191 % 4096 + 1)
      = cntPos x y p r w := by
  have h := halves_pos x y p r w
  rw [div_0] at h
  rw [mod_4095, div_4095]
  exact h

end Cert.Hist
-- ==== Proof.IdxKI_R0.lean ====
/-
  Where the histogram kernel's windows sit at each grid point.

  The grid has `2 × 4096` points; point `t` has coordinates `(t / 4096, t % 4096)`. Each of the three event
  windows is, at the point `(h, k)`, on block `h · 4096 + k` of its array — the point's own position `t` —, and
  the output window is on block `(h, 0, 0, 0)`: half `h = t / 4096` of the result array. Both facts are closed
  statements about the printed index maps, decided over the grid.
-/
import proofs.«419753_j13322988552663_3_alg».proof.Proof.FrameKI_R0

set_option Elab.async false

namespace Cert.KernelIdeal.Gen

open Idealize.ShloMosaic Idealize.SL.Sem

/-- At grid point `t` each of the three event windows is on block `t`. -/
theorem idx_in0 : ∀ t : Fin cfg0.N, win0_0.index t (0 : Fin 1) = t.val ∧ win0_1.index t (0 : Fin 1) = t.val
    ∧ win0_2.index t (0 : Fin 1) = t.val :=
  (by decide +kernel : ∀ t : Fin grid0.N, _)

/-- At grid point `t` the output window is on block `(t / 4096, 0, 0, 0)`. -/
theorem idx_out0 : ∀ t : Fin cfg0.N, win0_3.index t (0 : Fin 4) = t.val / 4096 ∧ win0_3.index t (1 : Fin 4) = 0
    ∧ win0_3.index t (2 : Fin 4) = 0 ∧ win0_3.index t (3 : Fin 4) = 0 :=
  (by decide +kernel : ∀ t : Fin grid0.N, _)

/-- A grid point's position is below `8192`. -/
theorem lt_8192 (t : Fin cfg0.N) : t.val < 8192 := lt_of_lt_of_eq t.isLt N_0

end Cert.KernelIdeal.Gen
-- ==== Proof.PayValue.lean ====
/-
  The two kernels' arithmetic at the ideal values, read index by index.

  Per chunk of 2048 events the histogram body builds three 0/1 arrays — the row one-hot `[iota r = x e]`, the column
  one-hot `[y e = iota w]` and the zero-polarity indicator `[p e = 0]` — each as a comparison bit widened to a word,
  converted to a float and narrowed to bf16 (the identity on extended reals). A product of the row one-hot, weighted by
  the indicator or by one minus it, with the column one-hot, into a zero accumulator, is at `(r, w)` a sum over the
  events of products of 0/1 values: the number of events at pixel `(r, w)` with zero, respectively nonzero, polarity
  word. The combining body adds the two halves' counts per channel, compares each total with zero, and moves the
  picture by fifteen down and up accordingly.
-/
import proofs.«419753_j13322988552663_3_alg».proof.Proof.Gen.KernelIdeal.Skeleton
import proofs.«419753_j13322988552663_3_alg».proof.Proof.HistSpec
import Idealize.ShloMosaic.Lib.ValueLayout
import Idealize.ShloMosaic.PureOps.Ideal.Laws
import Mathlib.Algebra.BigOperators.Ring.Finset
import Mathlib.Data.EReal.Basic
import Mathlib.Data.EReal.Operations

noncomputable section
namespace Cert.Hist.Pay
open Idealize.ShloMosaic ValueIdx Cert.KernelIdeal Cert.KernelIdeal.Gen Cert.Hist
open scoped BigOperators

variable [Cert.KernelIdeal.Facts]

/-! ## Words and their float readings -/

/-- A one-bit word widened to 32 bits and read as a signed integer is the float 1 when the bit is set, else 0. -/
theorem sitofp_ofBool (b : Bool) :
    FloatOps.sitofp (F := Ideal) .f32 ((BitVec.ofBool b).setWidth 32) = if b then (1 : EReal) else 0 := by
  cases b
  · show ((((0#32 : BitVec 32).toInt : ℝ)) : EReal) = 0
    simp
  · show ((((1#32 : BitVec 32).toInt : ℝ)) : EReal) = 1
    simp

/-- A natural below 2³² written as a 32-bit word equals a word exactly when the word reads as that natural. -/
theorem ofNat_beq_iff (n : ℕ) (hn : n < 4294967296) (a : BitVec 32) : (BitVec.ofNat 32 n == a) = decide (a.toNat = n) := by
  rw [Bool.eq_iff_iff, beq_iff_eq, decide_eq_true_iff]
  constructor
  · rintro rfl; simp [Nat.mod_eq_of_lt hn]
  · intro h; apply BitVec.eq_of_toNat_eq; simp [Nat.mod_eq_of_lt hn, h]

/-- The same with the word on the left. -/
theorem beq_ofNat_iff (n : ℕ) (hn : n < 4294967296) (a : BitVec 32) : (a == BitVec.ofNat 32 n) = decide (a.toNat = n) := by
  rw [← ofNat_beq_iff n hn a, Bool.eq_iff_iff, beq_iff_eq, beq_iff_eq]; exact eq_comm

/-! ## Layout: a column of a vector -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` (`b > 1` or not) reads, at `(i, c)`, the operand's row `i`. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    rw [if_neg ha]
  | ⟨1, _⟩ => rfl

/-- The same for a decided proposition. -/
theorem sitofp_decide (P : Prop) [Decidable P] :
    FloatOps.sitofp (F := Ideal) .f32 ((BitVec.ofBool (decide P)).setWidth 32) = if P then (1 : EReal) else 0 := by
  rw [sitofp_ofBool]
  by_cases h : P
  · rw [if_pos h, if_pos (decide_eq_true h)]
  · rw [if_neg h, if_neg (by simpa using h)]

/-! ## The three indicator arrays, element by element -/

/-- The row one-hot: entry `(r, e)` is 1 exactly when event `e`'s first coordinate word reads `r`. -/
theorem onehot_row (x : IVec S2048 32) (h1 : S2048.ShapeCasts S1x2048) (h2 : S1x2048.Broadcasts S640x2048)
    (h3 : S640x2048.Iotas .tc 32 [0]) (h4 : 1 < 32) (h5 : FTy.bits .bf16 < FTy.bits .f32) (r : Fin 640) (e : Fin 2048) :
    (truncf .bf16 (sitofp (F := Ideal) .f32 (extui 32 (cmpi .eq (iota .tc S640x2048 32 [0] h3)
        (broadcastTo S640x2048 (shapeCast S1x2048 x h1) h2)) h4)) h5 : FVec Ideal S640x2048 .bf16) (ix2 r e)
      = if (x (ix1 e)).toNat = r.val then (1 : EReal) else 0 := by
  show FloatOps.sitofp (F := Ideal) .f32 ((IntOp.cmpi .eq (iota .tc S640x2048 32 [0] h3 (ix2 r e))
      (broadcastTo S640x2048 (shapeCast S1x2048 x h1) h2 (ix2 r e))).setWidth 32) = _
  rw [iota_single_apply, broadcastTo_1b_ab_apply, shapeCast_a_1a_apply]
  show FloatOps.sitofp (F := Ideal) .f32 ((BitVec.ofBool (BitVec.ofNat 32 r.val == x (ix1 e))).setWidth 32) = _
  rw [ofNat_beq_iff r.val (by have := r.isLt; omega), sitofp_decide]

/-- The column one-hot: entry `(e, w)` is 1 exactly when event `e`'s second coordinate word reads `w`. -/
theorem onehot_col (y : IVec S2048 32) (h1 : S2048.ShapeCasts S2048x1) (h2 : S2048x1.Broadcasts S2048x480)
    (h3 : S1x480.Iotas .tc 32 [1]) (h6 : S1x480.Broadcasts S2048x480) (h4 : 1 < 32) (h5 : FTy.bits .bf16 < FTy.bits .f32)
    (e : Fin 2048) (w : Fin 480) :
    (truncf .bf16 (sitofp (F := Ideal) .f32 (extui 32 (cmpi .eq
        (broadcastTo S2048x480 (shapeCast S2048x1 y h1) h2)
        (broadcastTo S2048x480 (iota .tc S1x480 32 [1] h3) h6)) h4)) h5 : FVec Ideal S2048x480 .bf16) (ix2 e w)
      = if (y (ix1 e)).toNat = w.val then (1 : EReal) else 0 := by
  show FloatOps.sitofp (F := Ideal) .f32 ((IntOp.cmpi .eq
      (broadcastTo S2048x480 (shapeCast S2048x1 y h1) h2 (ix2 e w))
      (broadcastTo S2048x480 (iota .tc S1x480 32 [1] h3) h6 (ix2 e w))).setWidth 32) = _
  rw [broadcastTo_a1_ab_apply (by decide), shapeCast_a_a1_apply, broadcastTo_1b_ab_apply, iota_single_apply]
  show FloatOps.sitofp (F := Ideal) .f32 ((BitVec.ofBool (y (ix1 e) == BitVec.ofNat 32 w.val)).setWidth 32) = _
  rw [beq_ofNat_iff w.val (by have := w.isLt; omega), sitofp_decide]

/-- The zero-polarity indicator: entry `e` is 1 exactly when event `e`'s polarity word is zero. -/
theorem ind_zero (p : IVec S2048 32) (h4 : 1 < 32) (h5 : FTy.bits .bf16 < FTy.bits .f32) (e : Fin 2048) :
    (truncf .bf16 (sitofp (F := Ideal) .f32 (extui 32 (cmpi .eq p (broadcast S2048 0#32)) h4)) h5 : FVec Ideal S2048 .bf16) (ix1 e)
      = if p (ix1 e) = 0#32 then (1 : EReal) else 0 := by
  show FloatOps.sitofp (F := Ideal) .f32 ((BitVec.ofBool (p (ix1 e) == 0#32)).setWidth 32) = _
  rw [show (p (ix1 e) == 0#32) = decide (p (ix1 e) = 0#32) from by
    rw [Bool.eq_iff_iff, beq_iff_eq, decide_eq_true_iff], sitofp_decide]

/-- The row one-hot payload at `(r, e)`. -/
theorem pay4_apply (x : Vec Ideal S2048 .i32) (r : Fin 640) (e : Fin 2048) :
    k0_pay4 (F := Ideal) x (ix2 r e) = if (x (ix1 e)).toNat = r.val then (1 : EReal) else 0 := by
  unfold k0_pay4
  exact onehot_row x _ _ _ _ _ r e

/-- The column one-hot payload at `(e, w)`. -/
theorem pay5_apply (y : Vec Ideal S2048 .i32) (e : Fin 2048) (w : Fin 480) :
    k0_pay5 (F := Ideal) y (ix2 e w) = if (y (ix1 e)).toNat = w.val then (1 : EReal) else 0 := by
  unfold k0_pay5
  exact onehot_col y _ _ _ _ _ _ e w

/-- The zero-polarity indicator payload at `e`. -/
theorem pay6_apply (p : Vec Ideal S2048 .i32) (e : Fin 2048) :
    k0_pay6 (F := Ideal) p (ix1 e) = if p (ix1 e) = 0#32 then (1 : EReal) else 0 := by
  unfold k0_pay6
  exact ind_zero p _ _ e

/-! ## The product read at an index

The product contracts the left operand's axis 1 with the right operand's axis 0; its output axes are the left
operand's axis 0 and the right operand's axis 1. -/

/-- The left operand's row is the output's row. -/
theorem lhs_axis0 (i : S640x480.Idx) (q : dot_S640x2048_S2048x480_S640x480_1_0_0_1_n_n.contr.Idx) :
    (dot_S640x2048_S2048x480_S640x480_1_0_0_1_n_n.lhsIdx i q 0).val = (i 0).val := by
  unfold DotDims.lhsIdx
  rw [dif_neg (show ¬(0 : Fin S640x2048.rank) ∈ dot_S640x2048_S2048x480_S640x480_1_0_0_1_n_n.lhsBatch by decide), dif_pos (show (0 : Fin S640x2048.rank) ∈ dot_S640x2048_S2048x480_S640x480_1_0_0_1_n_n.lhsNonContracting by decide)]
  rfl

/-- The left operand's column is the contraction position. -/
theorem lhs_axis1 (i : S640x480.Idx) (q : dot_S640x2048_S2048x480_S640x480_1_0_0_1_n_n.contr.Idx) :
    (dot_S640x2048_S2048x480_S640x480_1_0_0_1_n_n.lhsIdx i q 1).val = (q ⟨0, by decide⟩).val :=
  dot_S640x2048_S2048x480_S640x480_1_0_0_1_n_n.lhsIdx_val_of_single rfl i q

/-- The right operand's row is the contraction position. -/
theorem rhs_axis0 (i : S640x480.Idx) (q : dot_S640x2048_S2048x480_S640x480_1_0_0_1_n_n.contr.Idx) :
    (dot_S640x2048_S2048x480_S640x480_1_0_0_1_n_n.rhsIdx i q 0).val = (q ⟨0, by decide⟩).val :=
  dot_S640x2048_S2048x480_S640x480_1_0_0_1_n_n.rhsIdx_val_of_single rfl i q

/-- The right operand's column is the output's column. -/
theorem rhs_axis1 (i : S640x480.Idx) (q : dot_S640x2048_S2048x480_S640x480_1_0_0_1_n_n.contr.Idx) :
    (dot_S640x2048_S2048x480_S640x480_1_0_0_1_n_n.rhsIdx i q 1).val = (i 1).val := by
  unfold DotDims.rhsIdx
  rw [dif_neg (show ¬(1 : Fin S2048x480.rank) ∈ dot_S640x2048_S2048x480_S640x480_1_0_0_1_n_n.rhsBatch by decide), dif_pos (show (1 : Fin S2048x480.rank) ∈ dot_S640x2048_S2048x480_S640x480_1_0_0_1_n_n.rhsNonContracting by decide)]
  rfl

/-- Into the zero accumulator the product at `(r, w)` is the sum over the 2048 events of the operands' products. -/
theorem matmul_zero_apply (A : FVec Ideal S640x2048 .bf16) (B : FVec Ideal S2048x480 .bf16) (r : Fin 640) (w : Fin 480) :
    matmul dot_S640x2048_S2048x480_S640x480_1_0_0_1_n_n none A B (constant (F := Ideal) S640x480 .f32 0x00000000#32) (ix2 r w)
      = ∑ e : Fin 2048, A (ix2 r e) * B (ix2 e w) := by
  show FloatOps.matmul dot_S640x2048_S2048x480_S640x480_1_0_0_1_n_n none A B (constant (F := Ideal) S640x480 .f32 0x00000000#32) (ix2 r w) = _
  rw [Ideal.matmul_constant_zero_apply, ← Equiv.sum_comp (contrEquiv1 dot_S640x2048_S2048x480_S640x480_1_0_0_1_n_n 2048 rfl rfl).symm]
  refine Finset.sum_congr rfl fun k _ => ?_
  have hk := contrEquiv1_symm_val dot_S640x2048_S2048x480_S640x480_1_0_0_1_n_n 2048 rfl rfl k
  have el : dot_S640x2048_S2048x480_S640x480_1_0_0_1_n_n.lhsIdx (ix2 r w) ((contrEquiv1 dot_S640x2048_S2048x480_S640x480_1_0_0_1_n_n 2048 rfl rfl).symm k) = ix2 r k := funext fun a => Fin.ext (by
    match a with
    | ⟨0, _⟩ => exact lhs_axis0 _ _
    | ⟨1, _⟩ => exact (lhs_axis1 _ _).trans hk)
  have er : dot_S640x2048_S2048x480_S640x480_1_0_0_1_n_n.rhsIdx (ix2 r w) ((contrEquiv1 dot_S640x2048_S2048x480_S640x480_1_0_0_1_n_n 2048 rfl rfl).symm k) = ix2 k w := funext fun a => Fin.ext (by
    match a with
    | ⟨0, _⟩ => exact (rhs_axis0 _ _).trans hk
    | ⟨1, _⟩ => exact rhs_axis1 _ _)
  rw [el, er]

/-! ## Counting with indicators -/

/-- A sum of 0/1 indicators is the number of indices where the indicator is 1. -/
theorem sum_ind {n : ℕ} (P : Fin n → Prop) [DecidablePred P] :
    (∑ e : Fin n, if P e then (1 : EReal) else 0) = (((Finset.univ.filter P).card : ℕ) : EReal) :=
  Finset.sum_boole P Finset.univ

/-- A product of two indicators is the indicator of the conjunction. -/
theorem ind_mul (P Q : Prop) [Decidable P] [Decidable Q] :
    (if P then (1 : EReal) else 0) * (if Q then (1 : EReal) else 0) = if P ∧ Q then (1 : EReal) else 0 := by
  by_cases hP : P <;> by_cases hQ : Q <;> simp [hP, hQ]

/-- One minus an indicator is the indicator of the negation: `1 - 1 = 0` and `1 - 0 = 1` on finite values. -/
theorem one_sub_ind (P : Prop) [Decidable P] :
    (1 : EReal) - (if P then (1 : EReal) else 0) = if ¬P then (1 : EReal) else 0 := by
  by_cases hP : P
  · rw [if_pos hP, if_neg (not_not.mpr hP)]
    exact EReal.sub_self (EReal.coe_ne_top 1) (EReal.coe_ne_bot 1)
  · rw [if_neg hP, if_pos hP]
    simp

/-- The bf16 word `0x3F80` is the float one. -/
theorem ofBits_one_bf16 : Ideal.ofBits .bf16 0x3F80#16 = 1 := by
  simp [Ideal.ofBits, Ideal.ieee, -EReal.coe_mul]; norm_num

/-! ## Rows weighted by an event weight, and the accumulating store's value -/

/-- A `[640, 2048]` array times a per-event weight broadcast along the rows, at `(r, e)`. -/
theorem weighted_row (A : FVec Ideal S640x2048 .bf16) (wt : FVec Ideal S2048 .bf16) (h1 : S2048.ShapeCasts S1x2048)
    (h2 : S1x2048.Broadcasts S640x2048) (r : Fin 640) (e : Fin 2048) :
    mulf A (broadcastTo S640x2048 (shapeCast S1x2048 wt h1) h2) (ix2 r e) = A (ix2 r e) * wt (ix1 e) := by
  rw [mulf_apply, broadcastTo_1b_ab_apply, shapeCast_a_1a_apply]

/-- A `[1, 640, 480]` array viewed `[640, 480]`, added to, and viewed `[1, 640, 480]` again, at `(0, r, w)`. -/
theorem acc_add (acc : FVec Ideal S1x640x480 .f32) (M : FVec Ideal S640x480 .f32) (h1 : S1x640x480.ShapeCasts S640x480)
    (h2 : S640x480.ShapeCasts S1x640x480) (r : Fin 640) (w : Fin 480) :
    shapeCast S1x640x480 (addf (shapeCast S640x480 acc h1) M) h2 (ix3 (0 : Fin 1) r w)
      = acc (ix3 (0 : Fin 1) r w) + M (ix2 r w) := by
  rw [shapeCast_ab_1ab_apply, addf_apply, shapeCast_1ab_ab_apply]

/-- The product of the weighted row one-hot with the column one-hot counts the events at `(r, w)` whose polarity
    word satisfies the weight's condition `Q`. -/
theorem matmul_count (x y p : Vec Ideal S2048 .i32) (Q : BitVec 32 → Prop) [DecidablePred Q] (wt : FVec Ideal S2048 .bf16)
    (hwt : ∀ e : Fin 2048, wt (ix1 e) = if Q (p (ix1 e)) then (1 : EReal) else 0)
    (h1 : S2048.ShapeCasts S1x2048) (h2 : S1x2048.Broadcasts S640x2048) (r : Fin 640) (w : Fin 480) :
    matmul dot_S640x2048_S2048x480_S640x480_1_0_0_1_n_n none (mulf (k0_pay4 (F := Ideal) x) (broadcastTo S640x2048 (shapeCast S1x2048 wt h1) h2))
        (k0_pay5 (F := Ideal) y) (constant (F := Ideal) S640x480 .f32 0x00000000#32) (ix2 r w)
      = (((Finset.univ.filter fun e : Fin 2048 => hits (ev x) (ev y) r.val w.val e ∧ Q (ev p e)).card : ℕ) : EReal) := by
  rw [matmul_zero_apply]
  refine Eq.trans ?_ (sum_ind _)
  refine Finset.sum_congr rfl fun e _ => ?_
  rw [weighted_row, pay4_apply, pay5_apply, hwt, ind_mul, ind_mul]
  refine if_congr ?_ rfl rfl
  show (((x (ix1 e)).toNat = r.val ∧ Q (p (ix1 e))) ∧ (y (ix1 e)).toNat = w.val)
    ↔ (((x (ix1 e)).toNat = r.val ∧ (y (ix1 e)).toNat = w.val) ∧ Q (p (ix1 e)))
  exact ⟨fun ⟨⟨a, b⟩, c⟩ => ⟨⟨a, c⟩, b⟩, fun ⟨⟨a, c⟩, b⟩ => ⟨⟨a, b⟩, c⟩⟩

/-! ## The payloads -/

/-- The nonzero-polarity product at `(r, w)`: the number of events there whose polarity word is not zero. -/
theorem pay7_apply (x y p : Vec Ideal S2048 .i32) (r : Fin 640) (w : Fin 480) :
    k0_pay7 (F := Ideal) x y p (ix2 r w) = ((cntPos (ev x) (ev y) (ev p) r.val w.val : ℕ) : EReal) := by
  unfold k0_pay7
  refine matmul_count x y p (fun b => b ≠ 0#32) _ (fun e => ?_) _ _ r w
  rw [subf_apply, pay6_apply]
  show Ideal.ofBits .bf16 0x3F80#16 - _ = _
  rw [ofBits_one_bf16, one_sub_ind]

/-- The zero-polarity product added onto channel 0 at `(0, r, w)`: the old value plus the number of events there whose
    polarity word is zero. -/
theorem pay8_apply (x y p : Vec Ideal S2048 .i32) (r : Fin 640) (w : Fin 480) (v36 : Vec Ideal S1x640x480 .f32) :
    k0_pay8 (F := Ideal) x y p v36 (ix3 (0 : Fin 1) r w)
      = v36 (ix3 (0 : Fin 1) r w) + ((cntNeg (ev x) (ev y) (ev p) r.val w.val : ℕ) : EReal) := by
  unfold k0_pay8
  refine (acc_add v36 _ _ _ r w).trans ?_
  exact congrArg (v36 (ix3 (0 : Fin 1) r w) + ·)
    (matmul_count x y p (fun b => b = 0#32) _ (fun e => pay6_apply p e) _ _ r w)

/-- Channel 1's update at `(0, r, w)`: the old value plus the nonzero-polarity product there. -/
theorem pay1_apply (r : Fin 640) (w : Fin 480) (v35 : FVec Ideal S640x480 .f32) (v42 : Vec Ideal S1x640x480 .f32) :
    k0_pay1 (F := Ideal) v35 v42 (ix3 (0 : Fin 1) r w) = v42 (ix3 (0 : Fin 1) r w) + v35 (ix2 r w) := by
  unfold k0_pay1
  exact acc_add v42 v35 _ _ r w

/-- The two channels re-laid under a leading unit axis. -/
theorem pay2_apply (r : Fin 640) (w : Fin 480) (v51 : Vec Ideal S2x640x480 .f32) (ch : Fin 2) :
    k0_pay2 (F := Ideal) v51 (ix4 (0 : Fin 1) ch r w) = v51 (ix3 ch r w) := by
  unfold k0_pay2
  exact shapeCast_abc_1abc_apply v51 _ (0 : Fin 1) ch r w

/-- The zero array. -/
theorem pay3_apply (j : S2x640x480.Idx) : k0_pay3 (F := Ideal) j = (0 : EReal) := by
  unfold k0_pay3
  rw [shapeCast_self]
  exact Ideal.ofBits_zero_f32

/-! ## The combining step -/

/-- The float comparison "sum of two counts above zero", widened to 32 bits, is the word of `0 < n + m`. -/
theorem gt_zero_word (n m : ℕ) :
    (FloatOps.cmpf (F := Ideal) (φ := .f32) .ogt ((n : EReal) + (m : EReal)) (Ideal.ofBits .f32 0x00000000#32)).setWidth 32
      = bit32 (0 < n + m) := by
  show (BitVec.ofBool (decide (Ideal.ofBits .f32 0x00000000#32 < (n : EReal) + (m : EReal)))).setWidth 32 = _
  have key : ((0 : ℕ) : EReal) < ((n + m : ℕ) : EReal) ↔ 0 < n + m := EReal.natCast_lt_iff
  rw [Nat.cast_zero, Nat.cast_add] at key
  have hd : decide (Ideal.ofBits .f32 0x00000000#32 < (n : EReal) + (m : EReal)) = decide (0 < n + m) := by
    rw [decide_eq_decide, Ideal.ofBits_zero_f32]
    exact key
  rw [hd]
  unfold bit32
  by_cases h : 0 < n + m
  · rw [if_pos h, decide_eq_true h]; rfl
  · rw [if_neg h, decide_eq_false h]; rfl

/-- Channel `c` of a `[2, 640, 480]` array, cut out as `[1, 640, 480]` and viewed `[640, 480]`, at `(r, w)`. -/
theorem slice_channel (T : FVec Ideal S2x640x480 .f32) (off : Fin S2x640x480.rank → ℕ) (c : Fin 2)
    (ho0 : off 0 = c.val) (ho1 : off 1 = 0) (ho2 : off 2 = 0) (hs : S2x640x480.Slices off S1x640x480)
    (hd : S1x640x480.ShapeCasts S640x480) (r : Fin 640) (w : Fin 480) :
    shapeCast S640x480 (extractStridedSlice S1x640x480 off T hs) hd (ix2 r w) = T (ix3 c r w) := by
  rw [shapeCast_1ab_ab_apply]
  refine extractStridedSlice_apply off T hs _ (ix3 c r w) fun a => ?_
  match a with
  | ⟨0, _⟩ =>
    show c.val = off 0 + 0
    rw [ho0, Nat.add_zero]
  | ⟨1, _⟩ =>
    show r.val = off 1 + r.val
    rw [ho1, Nat.zero_add]
  | ⟨2, _⟩ =>
    show w.val = off 2 + w.val
    rw [ho2, Nat.zero_add]

/-- The indicator of channel `c`: the two halves' channel `c` added, compared with zero, as a float. -/
theorem ind_channel (v0 v2 : FVec Ideal S1x2x640x480 .f32) (hc : S1x2x640x480.ShapeCasts S2x640x480)
    (off : Fin S2x640x480.rank → ℕ) (c : Fin 2) (ho0 : off 0 = c.val) (ho1 : off 1 = 0) (ho2 : off 2 = 0)
    (hs : S2x640x480.Slices off S1x640x480) (hd : S1x640x480.ShapeCasts S640x480) (h4 : 1 < 32)
    (r : Fin 640) (w : Fin 480) (n n' : ℕ)
    (hn : v0 (ix4 (0 : Fin 1) c r w) = (n : EReal)) (hn' : v2 (ix4 (0 : Fin 1) c r w) = (n' : EReal)) :
    (sitofp (F := Ideal) .f32 (extui 32 (cmpf .ogt
        (shapeCast S640x480 (extractStridedSlice S1x640x480 off
          (addf (shapeCast S2x640x480 v0 hc) (shapeCast S2x640x480 v2 hc)) hs) hd)
        (broadcast S640x480 (Ideal.ofBits .f32 0x00000000#32))) h4) : FVec Ideal S640x480 .f32) (ix2 r w)
      = FloatOps.sitofp (F := Ideal) .f32 (bit32 (0 < n + n')) := by
  show FloatOps.sitofp (F := Ideal) .f32 ((FloatOps.cmpf .ogt
      (shapeCast S640x480 (extractStridedSlice S1x640x480 off
        (addf (shapeCast S2x640x480 v0 hc) (shapeCast S2x640x480 v2 hc)) hs) hd (ix2 r w))
      (Ideal.ofBits .f32 0x00000000#32)).setWidth 32) = _
  rw [slice_channel _ off c ho0 ho1 ho2, addf_apply, shapeCast_1abc_abc_apply, shapeCast_1abc_abc_apply, hn, hn',
    gt_zero_word]

/-- The combining body at `(r, w)`, given the four counts the two halves hold there: the picture less fifteen when
    channel 0's total is positive, plus fifteen when channel 1's is. -/
theorem k1pay_apply (r : Fin 640) (w : Fin 480) (v0 v2 : Vec Ideal S1x2x640x480 .f32) (v17 : Vec Ideal S640x480 .f32)
    (n0 n0' n1 n1' : ℕ)
    (h0 : v0 (ix4 (0 : Fin 1) (0 : Fin 2) r w) = (n0 : EReal)) (h0' : v2 (ix4 (0 : Fin 1) (0 : Fin 2) r w) = (n0' : EReal))
    (h1 : v0 (ix4 (0 : Fin 1) (1 : Fin 2) r w) = (n1 : EReal)) (h1' : v2 (ix4 (0 : Fin 1) (1 : Fin 2) r w) = (n1' : EReal)) :
    k1_pay1 (F := Ideal) v0 v2 v17 (ix2 r w)
      = (v17 (ix2 r w) - c15 * FloatOps.sitofp (F := Ideal) .f32 (bit32 (0 < n0 + n0')))
        + c15 * FloatOps.sitofp (F := Ideal) .f32 (bit32 (0 < n1 + n1')) := by
  unfold k1_pay1
  rw [← ind_channel v0 v2 _ ![0, 0, 0] (0 : Fin 2) rfl rfl rfl _ _ _ r w n0 n0' h0 h0',
    ← ind_channel v0 v2 _ ![1, 0, 0] (1 : Fin 2) rfl rfl rfl _ _ _ r w n1 n1' h1 h1']
  rfl

end Cert.Hist.Pay

end
-- ==== Proof.PieceKI.lean ====
/-
  What the histogram body leaves in its two-channel accumulator, and in the output block, read at an index.

  At a grid point the body (after zeroing the accumulator, at a point that starts a pass) adds to channel 0 the number
  of the chunk's events at each pixel whose polarity word is zero and to channel 1 the number whose polarity word is not
  zero; at a point that ends a pass it then copies both channels to the output block. The stores are through the two
  channel rectangles `[c, 0, 0] + [1, 640, 480]` of the `[2, 640, 480]` accumulator: each covers exactly the elements
  `(c, r, w)`, so an element of channel `c` reads the payload stored through channel `c`'s rectangle at `(0, r, w)`,
  and a load of the accumulator between the stores reads the earlier store (or the zero fill, or what the point found).
-/
import proofs.«419753_j13322988552663_3_alg».proof.Proof.FrameKI_R0
import proofs.«419753_j13322988552663_3_alg».proof.Proof.PayValue
import proofs.«419753_j13322988552663_3_alg».proof.Proof.HistSpec
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hist ValueIdx

/-! ## The two channel rectangles of the accumulator, by coordinates -/

/-- The zero offsets of a rank-1 rectangle, as a constant function. -/
theorem off1_zero : (![0] : Fin S2048.rank → ℕ) = fun _ => 0 := by
  funext a; match a with | ⟨0, _⟩ => rfl
/-- The same at rank 3. -/
theorem off3_zero : (![0, 0, 0] : Fin S2x640x480.rank → ℕ) = fun _ => 0 := by
  funext a; match a with | ⟨0, _⟩ => rfl | ⟨1, _⟩ => rfl | ⟨2, _⟩ => rfl
/-- The same at rank 4. -/
theorem off4_zero : (![0, 0, 0, 0] : Fin S1x2x640x480.rank → ℕ) = fun _ => 0 := by
  funext a; match a with | ⟨0, _⟩ => rfl | ⟨1, _⟩ => rfl | ⟨2, _⟩ => rfl | ⟨3, _⟩ => rfl

/-- Channel 1's rectangle places its local index `(0, r, w)` at `(1, r, w)`. -/
theorem idx_ch1 (inb : ∀ a, (![1, 0, 0] : Fin S2x640x480.rank → ℕ) a + (![1, 640, 480] : Fin S2x640x480.rank → ℕ) a ≤ S2x640x480.size a)
    (r : Fin 640) (w : Fin 480) :
    (Rect.unit (s := S2x640x480) ![1, 0, 0] ![1, 640, 480] inb).toLoadRect.idx (ix3 (0 : Fin 1) r w) = ix3 (1 : Fin 2) r w := by
  funext a; apply Fin.ext
  match a with
  | ⟨0, _⟩ => rfl
  | ⟨1, _⟩ => show 0 + 1 * r.val = r.val; omega
  | ⟨2, _⟩ => show 0 + 1 * w.val = w.val; omega

/-- Channel 0's rectangle places its local index `(0, r, w)` at `(0, r, w)`. -/
theorem idx_ch0 (inb : ∀ a, (![0, 0, 0] : Fin S2x640x480.rank → ℕ) a + (![1, 640, 480] : Fin S2x640x480.rank → ℕ) a ≤ S2x640x480.size a)
    (r : Fin 640) (w : Fin 480) :
    (Rect.unit (s := S2x640x480) ![0, 0, 0] ![1, 640, 480] inb).toLoadRect.idx (ix3 (0 : Fin 1) r w) = ix3 (0 : Fin 2) r w := by
  funext a; apply Fin.ext
  match a with
  | ⟨0, _⟩ => rfl
  | ⟨1, _⟩ => show 0 + 1 * r.val = r.val; omega
  | ⟨2, _⟩ => show 0 + 1 * w.val = w.val; omega

/-- Channel 0's element `(0, r, w)` is not under channel 1's rectangle. -/
theorem ch0_not_mem_ch1 (inb : ∀ a, (![1, 0, 0] : Fin S2x640x480.rank → ℕ) a + (![1, 640, 480] : Fin S2x640x480.rank → ℕ) a ≤ S2x640x480.size a)
    (r : Fin 640) (w : Fin 480) :
    ix3 (0 : Fin 2) r w ∉ (Rect.unit (s := S2x640x480) ![1, 0, 0] ![1, 640, 480] inb).set := fun h =>
  Nat.not_succ_le_zero 0 ((Rect.mem_set_unit.mp h 0).1)

/-- Channel 1's element `(1, r, w)` is not under channel 0's rectangle. -/
theorem ch1_not_mem_ch0 (inb : ∀ a, (![0, 0, 0] : Fin S2x640x480.rank → ℕ) a + (![1, 640, 480] : Fin S2x640x480.rank → ℕ) a ≤ S2x640x480.size a)
    (r : Fin 640) (w : Fin 480) :
    ix3 (1 : Fin 2) r w ∉ (Rect.unit (s := S2x640x480) ![0, 0, 0] ![1, 640, 480] inb).set := fun h =>
  Nat.lt_irrefl 1 ((Rect.mem_set_unit.mp h 0).2)

section Pieces
variable {Val : EltTy → Type} [∀ e, Nonempty (Val e)]

/-- After a last store through channel 1's rectangle, the buffer at `(1, r, w)` is that store's payload at `(0, r, w)`. -/
theorem canon_ch1 (inb) (P1 : (Rect.unit (s := S2x640x480) ![1, 0, 0] ![1, 640, 480] inb).shape.Idx → Val .f32)
    (L : List (View.Piece Val S2x640x480 .f32)) (r : Fin 640) (w : Fin 480) :
    View.canon (⟨Rect.unit (s := S2x640x480) ![1, 0, 0] ![1, 640, 480] inb, P1⟩ :: L) (ix3 (1 : Fin 2) r w)
      = P1 (ix3 (0 : Fin 1) r w) := by
  refine (congrArg (View.canon _) (idx_ch1 inb r w).symm).trans ?_
  exact View.canon_cons_emb _ P1 L (ix3 (0 : Fin 1) r w)

/-- A store through channel 1's rectangle leaves channel 0's elements as they were. -/
theorem canon_skip_ch1 (inb1) (P1 : (Rect.unit (s := S2x640x480) ![1, 0, 0] ![1, 640, 480] inb1).shape.Idx → Val .f32)
    (L : List (View.Piece Val S2x640x480 .f32)) (r : Fin 640) (w : Fin 480) :
    View.canon ((⟨Rect.unit (s := S2x640x480) ![1, 0, 0] ![1, 640, 480] inb1, P1⟩ : View.Piece Val S2x640x480 .f32) :: L) (ix3 (0 : Fin 2) r w)
      = View.canon L (ix3 (0 : Fin 2) r w) :=
  View.canon_cons_of_not_mem (⟨Rect.unit (s := S2x640x480) ![1, 0, 0] ![1, 640, 480] inb1, P1⟩ : View.Piece Val S2x640x480 .f32) L (ch0_not_mem_ch1 inb1 r w)

/-- A store through channel 0's rectangle leaves channel 1's elements as they were. -/
theorem canon_skip_ch0 (inb0) (P0 : (Rect.unit (s := S2x640x480) ![0, 0, 0] ![1, 640, 480] inb0).shape.Idx → Val .f32)
    (L : List (View.Piece Val S2x640x480 .f32)) (r : Fin 640) (w : Fin 480) :
    View.canon ((⟨Rect.unit (s := S2x640x480) ![0, 0, 0] ![1, 640, 480] inb0, P0⟩ : View.Piece Val S2x640x480 .f32) :: L) (ix3 (1 : Fin 2) r w)
      = View.canon L (ix3 (1 : Fin 2) r w) :=
  View.canon_cons_of_not_mem (⟨Rect.unit (s := S2x640x480) ![0, 0, 0] ![1, 640, 480] inb0, P0⟩ : View.Piece Val S2x640x480 .f32) L (ch1_not_mem_ch0 inb0 r w)

/-- After stores through channel 0's rectangle and then channel 1's, the buffer at `(0, r, w)` is channel 0's payload. -/
theorem canon_ch0 (inb1) (P1 : (Rect.unit (s := S2x640x480) ![1, 0, 0] ![1, 640, 480] inb1).shape.Idx → Val .f32)
    (inb0) (P0 : (Rect.unit (s := S2x640x480) ![0, 0, 0] ![1, 640, 480] inb0).shape.Idx → Val .f32)
    (L : List (View.Piece Val S2x640x480 .f32)) (r : Fin 640) (w : Fin 480) :
    View.canon (⟨Rect.unit (s := S2x640x480) ![1, 0, 0] ![1, 640, 480] inb1, P1⟩
        :: ⟨Rect.unit (s := S2x640x480) ![0, 0, 0] ![1, 640, 480] inb0, P0⟩ :: L) (ix3 (0 : Fin 2) r w)
      = P0 (ix3 (0 : Fin 1) r w) := by
  refine (canon_skip_ch1 inb1 P1 _ r w).trans ?_
  refine (congrArg (View.canon _) (idx_ch0 inb0 r w).symm).trans ?_
  exact View.canon_cons_emb _ P0 L (ix3 (0 : Fin 1) r w)

end Pieces

/-- The whole rectangle of the accumulator places an index at itself. -/
theorem idx_whole3 (inb : ∀ a, (![0, 0, 0] : Fin S2x640x480.rank → ℕ) a + (![2, 640, 480] : Fin S2x640x480.rank → ℕ) a ≤ S2x640x480.size a)
    (ch : Fin 2) (r : Fin 640) (w : Fin 480) :
    (Rect.unit (s := S2x640x480) ![0, 0, 0] ![2, 640, 480] inb).toLoadRect.idx (ix3 ch r w) = ix3 ch r w := by
  funext a; apply Fin.ext
  match a with
  | ⟨0, _⟩ => show 0 + 1 * ch.val = ch.val; omega
  | ⟨1, _⟩ => show 0 + 1 * r.val = r.val; omega
  | ⟨2, _⟩ => show 0 + 1 * w.val = w.val; omega

/-! ## Loads of whole buffers at their contents -/

section Loads
variable {F : FTy → Type} [FloatOps F]

/-- A load of a whole 2048-word buffer holding `x` reads `x`. -/
theorem load_S2048 (arg : Memref sig .tc .vmem S2048 .i32) (h : arg.IsWhole) (x : Vec F S2048 .i32)
    (inb : ∀ a, (![0] : Fin S2048.rank → ℕ) a + S2048.size a ≤ S2048.size a) :
    View.readAt (Elt F) arg.view (Rect.unit (s := S2048) ![0] S2048.size inb).toLoadRect (h.unread x) = x := by
  rw [View.readAt_eq_ld, h.read_unread, View.ld_unit_zero off1_zero]

/-- A load through a rectangle of the accumulator holding `xs` reads `xs` at the rectangle's indices. -/
theorem load_acc (arg : Memref sig .tc .vmem S2x640x480 .f32) (h : arg.IsWhole) (xs : Vec F S2x640x480 .f32)
    (R : Rect S2x640x480) (j : R.shape.Idx) :
    View.readAt (Elt F) arg.view R.toLoadRect (h.unread xs) j = xs (R.toLoadRect.idx j) := by
  rw [View.readAt_eq_ld, h.read_unread]

end Loads

/-! ## What each control case leaves in the accumulator, at an index -/

/-- A pass's first point, channel 0: zero plus the chunk's zero-polarity count at `(r, w)`. -/
theorem sout0_A_0_neg (c : Dev nD) (i : grid0.Coords) (arg2 : Memref sig .tc .vmem S2048 .i32) (harg2 : arg2.IsWhole) (arg3 : Memref sig .tc .vmem S2048 .i32) (harg3 : arg3.IsWhole) (arg4 : Memref sig .tc .vmem S2048 .i32) (harg4 : arg4.IsWhole) (arg5 : Memref sig .tc .vmem S1x2x640x480 .f32) (harg5 : arg5.IsWhole) (arg6 : Memref sig .tc .vmem S2x640x480 .f32) (harg6 : arg6.IsWhole) (hc0 : cond0_0 i) (hc1 : ¬cond0_1 i) (x0 x1 x2 : Vec Ideal S2048 .i32) (r : Fin 640) (w : Fin 480) :
    sout0_A_0 (F := Ideal) c i arg2 harg2 arg3 harg3 arg4 harg4 arg5 harg5 arg6 harg6 hc0 hc1 x0 x1 x2 (ix3 (0 : Fin 2) r w)
      = 0 + ((cntNeg (ev x0) (ev x1) (ev x2) r.val w.val : ℕ) : EReal) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [load_S2048 arg2 harg2 x0, load_S2048 arg3 harg3 x1, load_S2048 arg4 harg4 x2]
  refine (canon_ch0 _ _ _ _ _ r w).trans ?_
  refine (Cert.Hist.Pay.pay8_apply x0 x1 x2 r w _).trans ?_
  refine congrArg (· + ((cntNeg (ev x0) (ev x1) (ev x2) r.val w.val : ℕ) : EReal)) ?_
  refine (congrFun (View.readCov_eq_canon' _ _ _) _).trans ?_
  refine (congrFun (View.canon_unit_zero off3_zero _ _) _).trans ?_
  exact Cert.Hist.Pay.pay3_apply _

/-- A pass's first point, channel 1: zero plus the chunk's nonzero-polarity count at `(r, w)`. -/
theorem sout0_A_0_pos (c : Dev nD) (i : grid0.Coords) (arg2 : Memref sig .tc .vmem S2048 .i32) (harg2 : arg2.IsWhole) (arg3 : Memref sig .tc .vmem S2048 .i32) (harg3 : arg3.IsWhole) (arg4 : Memref sig .tc .vmem S2048 .i32) (harg4 : arg4.IsWhole) (arg5 : Memref sig .tc .vmem S1x2x640x480 .f32) (harg5 : arg5.IsWhole) (arg6 : Memref sig .tc .vmem S2x640x480 .f32) (harg6 : arg6.IsWhole) (hc0 : cond0_0 i) (hc1 : ¬cond0_1 i) (x0 x1 x2 : Vec Ideal S2048 .i32) (r : Fin 640) (w : Fin 480) :
    sout0_A_0 (F := Ideal) c i arg2 harg2 arg3 harg3 arg4 harg4 arg5 harg5 arg6 harg6 hc0 hc1 x0 x1 x2 (ix3 (1 : Fin 2) r w)
      = 0 + ((cntPos (ev x0) (ev x1) (ev x2) r.val w.val : ℕ) : EReal) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [load_S2048 arg2 harg2 x0, load_S2048 arg3 harg3 x1, load_S2048 arg4 harg4 x2]
  refine (canon_ch1 _ _ _ r w).trans ?_
  refine (Cert.Hist.Pay.pay1_apply r w _ _).trans ?_
  refine congrArg₂ (· + ·) ?_ (Cert.Hist.Pay.pay7_apply x0 x1 x2 r w)
  refine (congrFun (View.readCov_eq_canon' _ _ _) _).trans ?_
  refine (congrArg (View.canon _) (idx_ch1 _ r w)).trans ?_
  refine (canon_skip_ch0 _ _ _ r w).trans ?_
  refine (congrFun (View.canon_unit_zero off3_zero _ _) _).trans ?_
  exact Cert.Hist.Pay.pay3_apply _

/-- A middle point, channel 0: what the point found plus the chunk's zero-polarity count at `(r, w)`. -/
theorem sout0_B_0_neg (c : Dev nD) (i : grid0.Coords) (arg2 : Memref sig .tc .vmem S2048 .i32) (harg2 : arg2.IsWhole) (arg3 : Memref sig .tc .vmem S2048 .i32) (harg3 : arg3.IsWhole) (arg4 : Memref sig .tc .vmem S2048 .i32) (harg4 : arg4.IsWhole) (arg5 : Memref sig .tc .vmem S1x2x640x480 .f32) (harg5 : arg5.IsWhole) (arg6 : Memref sig .tc .vmem S2x640x480 .f32) (harg6 : arg6.IsWhole) (hc0 : ¬cond0_0 i) (hc1 : ¬cond0_1 i) (x0 x1 x2 : Vec Ideal S2048 .i32) (xs0 : Vec Ideal S2x640x480 .f32) (r : Fin 640) (w : Fin 480) :
    sout0_B_0 (F := Ideal) c i arg2 harg2 arg3 harg3 arg4 harg4 arg5 harg5 arg6 harg6 hc0 hc1 x0 x1 x2 xs0 (ix3 (0 : Fin 2) r w)
      = xs0 (ix3 (0 : Fin 2) r w) + ((cntNeg (ev x0) (ev x1) (ev x2) r.val w.val : ℕ) : EReal) := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [load_S2048 arg2 harg2 x0, load_S2048 arg3 harg3 x1, load_S2048 arg4 harg4 x2]
  refine (canon_ch0 _ _ _ _ _ r w).trans ?_
  refine (Cert.Hist.Pay.pay8_apply x0 x1 x2 r w _).trans ?_
  refine congrArg (· + ((cntNeg (ev x0) (ev x1) (ev x2) r.val w.val : ℕ) : EReal)) ?_
  refine (load_acc arg6 harg6 xs0 _ _).trans ?_
  exact congrArg xs0 (idx_ch0 _ r w)

/-- A middle point, channel 1: what the point found plus the chunk's nonzero-polarity count at `(r, w)`. -/
theorem sout0_B_0_pos (c : Dev nD) (i : grid0.Coords) (arg2 : Memref sig .tc .vmem S2048 .i32) (harg2 : arg2.IsWhole) (arg3 : Memref sig .tc .vmem S2048 .i32) (harg3 : arg3.IsWhole) (arg4 : Memref sig .tc .vmem S2048 .i32) (harg4 : arg4.IsWhole) (arg5 : Memref sig .tc .vmem S1x2x640x480 .f32) (harg5 : arg5.IsWhole) (arg6 : Memref sig .tc .vmem S2x640x480 .f32) (harg6 : arg6.IsWhole) (hc0 : ¬cond0_0 i) (hc1 : ¬cond0_1 i) (x0 x1 x2 : Vec Ideal S2048 .i32) (xs0 : Vec Ideal S2x640x480 .f32) (r : Fin 640) (w : Fin 480) :
    sout0_B_0 (F := Ideal) c i arg2 harg2 arg3 harg3 arg4 harg4 arg5 harg5 arg6 harg6 hc0 hc1 x0 x1 x2 xs0 (ix3 (1 : Fin 2) r w)
      = xs0 (ix3 (1 : Fin 2) r w) + ((cntPos (ev x0) (ev x1) (ev x2) r.val w.val : ℕ) : EReal) := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [load_S2048 arg2 harg2 x0, load_S2048 arg3 harg3 x1, load_S2048 arg4 harg4 x2]
  refine (canon_ch1 _ _ _ r w).trans ?_
  refine (Cert.Hist.Pay.pay1_apply r w _ _).trans ?_
  refine congrArg₂ (· + ·) ?_ (Cert.Hist.Pay.pay7_apply x0 x1 x2 r w)
  refine (load_acc arg6 harg6 xs0 _ _).trans ?_
  exact congrArg xs0 (idx_ch1 _ r w)

/-- A pass's last point, channel 0: what the point found plus the chunk's zero-polarity count at `(r, w)`. -/
theorem sout0_C_0_neg (c : Dev nD) (i : grid0.Coords) (arg2 : Memref sig .tc .vmem S2048 .i32) (harg2 : arg2.IsWhole) (arg3 : Memref sig .tc .vmem S2048 .i32) (harg3 : arg3.IsWhole) (arg4 : Memref sig .tc .vmem S2048 .i32) (harg4 : arg4.IsWhole) (arg5 : Memref sig .tc .vmem S1x2x640x480 .f32) (harg5 : arg5.IsWhole) (arg6 : Memref sig .tc .vmem S2x640x480 .f32) (harg6 : arg6.IsWhole) (hc0 : ¬cond0_0 i) (hc1 : cond0_1 i) (x0 x1 x2 : Vec Ideal S2048 .i32) (xs0 : Vec Ideal S2x640x480 .f32) (r : Fin 640) (w : Fin 480) :
    sout0_C_0 (F := Ideal) c i arg2 harg2 arg3 harg3 arg4 harg4 arg5 harg5 arg6 harg6 hc0 hc1 x0 x1 x2 xs0 (ix3 (0 : Fin 2) r w)
      = xs0 (ix3 (0 : Fin 2) r w) + ((cntNeg (ev x0) (ev x1) (ev x2) r.val w.val : ℕ) : EReal) := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [load_S2048 arg2 harg2 x0, load_S2048 arg3 harg3 x1, load_S2048 arg4 harg4 x2]
  refine (canon_ch0 _ _ _ _ _ r w).trans ?_
  refine (Cert.Hist.Pay.pay8_apply x0 x1 x2 r w _).trans ?_
  refine congrArg (· + ((cntNeg (ev x0) (ev x1) (ev x2) r.val w.val : ℕ) : EReal)) ?_
  refine (load_acc arg6 harg6 xs0 _ _).trans ?_
  exact congrArg xs0 (idx_ch0 _ r w)

/-- A pass's last point, channel 1: what the point found plus the chunk's nonzero-polarity count at `(r, w)`. -/
theorem sout0_C_0_pos (c : Dev nD) (i : grid0.Coords) (arg2 : Memref sig .tc .vmem S2048 .i32) (harg2 : arg2.IsWhole) (arg3 : Memref sig .tc .vmem S2048 .i32) (harg3 : arg3.IsWhole) (arg4 : Memref sig .tc .vmem S2048 .i32) (harg4 : arg4.IsWhole) (arg5 : Memref sig .tc .vmem S1x2x640x480 .f32) (harg5 : arg5.IsWhole) (arg6 : Memref sig .tc .vmem S2x640x480 .f32) (harg6 : arg6.IsWhole) (hc0 : ¬cond0_0 i) (hc1 : cond0_1 i) (x0 x1 x2 : Vec Ideal S2048 .i32) (xs0 : Vec Ideal S2x640x480 .f32) (r : Fin 640) (w : Fin 480) :
    sout0_C_0 (F := Ideal) c i arg2 harg2 arg3 harg3 arg4 harg4 arg5 harg5 arg6 harg6 hc0 hc1 x0 x1 x2 xs0 (ix3 (1 : Fin 2) r w)
      = xs0 (ix3 (1 : Fin 2) r w) + ((cntPos (ev x0) (ev x1) (ev x2) r.val w.val : ℕ) : EReal) := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [load_S2048 arg2 harg2 x0, load_S2048 arg3 harg3 x1, load_S2048 arg4 harg4 x2]
  refine (canon_ch1 _ _ _ r w).trans ?_
  refine (Cert.Hist.Pay.pay1_apply r w _ _).trans ?_
  refine congrArg₂ (· + ·) ?_ (Cert.Hist.Pay.pay7_apply x0 x1 x2 r w)
  refine (load_acc arg6 harg6 xs0 _ _).trans ?_
  exact congrArg xs0 (idx_ch1 _ r w)

/-- In the last chunk's case the output block receives the accumulator as this point leaves it, channel by channel. -/
theorem out0_C_3_apply (c : Dev nD) (i : grid0.Coords) (arg2 : Memref sig .tc .vmem S2048 .i32) (harg2 : arg2.IsWhole) (arg3 : Memref sig .tc .vmem S2048 .i32) (harg3 : arg3.IsWhole) (arg4 : Memref sig .tc .vmem S2048 .i32) (harg4 : arg4.IsWhole) (arg5 : Memref sig .tc .vmem S1x2x640x480 .f32) (harg5 : arg5.IsWhole) (arg6 : Memref sig .tc .vmem S2x640x480 .f32) (harg6 : arg6.IsWhole) (hc0 : ¬cond0_0 i) (hc1 : cond0_1 i) (x0 x1 x2 : Vec Ideal S2048 .i32) (xs0 : Vec Ideal S2x640x480 .f32) (ch : Fin 2) (r : Fin 640) (w : Fin 480) :
    out0_C_3 (F := Ideal) c i arg2 harg2 arg3 harg3 arg4 harg4 arg5 harg5 arg6 harg6 hc0 hc1 x0 x1 x2 xs0 (ix4 (0 : Fin 1) ch r w)
      = sout0_C_0 (F := Ideal) c i arg2 harg2 arg3 harg3 arg4 harg4 arg5 harg5 arg6 harg6 hc0 hc1 x0 x1 x2 xs0 (ix3 ch r w) := by
  unfold out0_C_3 sout0_C_0
  rw [View.read_writes_eq_canon _ _ _ (cover0_C_3 c i arg2 harg2 arg3 harg3 arg4 harg4 arg5 harg5 arg6 harg6 hc0 hc1 x0 x1 x2 xs0),
    View.read_writes_eq_canon _ _ _ (scover0_C_0 c i arg2 harg2 arg3 harg3 arg4 harg4 arg5 harg5 arg6 harg6 hc0 hc1 x0 x1 x2 xs0)]
  unfold kernelRun0_C
  dsimp only
  sl_unfold_words
  refine (congrFun (View.canon_unit_zero off4_zero _ _) _).trans ?_
  refine (Cert.Hist.Pay.pay2_apply r w _ ch).trans ?_
  refine (congrFun (View.readCov_eq_canon' _ _ _) _).trans ?_
  exact congrArg (View.canon _) (idx_whole3 _ ch r w)

end Cert.KernelIdeal.Gen

end
-- ==== Proof.ValueKI_R0.lean ====
/-
  The histogram kernel's result array, read as counts.

  The kernel walks a grid of `8192 = 2 · 4096` points; point `t` sees chunk `t` of `2048` events of each of the three
  event arrays (block `t` of an array is its elements `t · 2048 … t · 2048 + 2047`). A two-channel accumulator is reset
  at the first point of each half and at every point gains, per pixel, the chunk's count of zero-polarity events
  (channel 0) and of nonzero-polarity events (channel 1); so after point `n` it holds the sum of the counts of the
  chunks since the last reset. At the last point of a half the accumulator is copied to the output block and written
  back as that half of the result array. Hence entry `(h, ch, r, w)` of the result is the count of channel `ch` at
  pixel `(r, w)` over the `4096` chunks of half `h`, and the two halves' entries add up to the count over all events.
-/
import proofs.«419753_j13322988552663_3_alg».proof.Proof.FrameKI_R0
import proofs.«419753_j13322988552663_3_alg».proof.Proof.CountLaws
import proofs.«419753_j13322988552663_3_alg».proof.Proof.AccLaws
import proofs.«419753_j13322988552663_3_alg».proof.Proof.IdxKI_R0
import proofs.«419753_j13322988552663_3_alg».proof.Proof.PieceKI
import Idealize.ShloMosaic.Lib.Pipeline.Value
import Idealize.ShloMosaic.Lib.ValueIdx
import Mathlib.Data.EReal.Basic

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Hist

variable (V : (c : Dev nD) → (b : Ref sig .tc) → Buf (Elt Ideal) ((c : Thread nD τ).loc b))

/-! ## The input blocks are the chunks -/

/-- The three event arrays as the region finds them, and their blocks at a grid point, at their literal types. -/
abbrev xa0 (c : Dev nD) : Vec Ideal S16777216 .i32 := V c main_arg0
abbrev xa1 (c : Dev nD) : Vec Ideal S16777216 .i32 := V c main_arg1
abbrev xa2 (c : Dev nD) : Vec Ideal S16777216 .i32 := V c main_arg2
abbrev xb0 (c : Dev nD) (t : Fin cfg0.N) : Vec Ideal S2048 .i32 := iblk0 V c 0 t
abbrev xb1 (c : Dev nD) (t : Fin cfg0.N) : Vec Ideal S2048 .i32 := iblk0 V c 1 t
abbrev xb2 (c : Dev nD) (t : Fin cfg0.N) : Vec Ideal S2048 .i32 := iblk0 V c 2 t

/-- Block `t` of the first event array is chunk `t`: element `l` of the block is element `t · 2048 + l` of the array
    (a block's coordinate in its array is the block index times the block's extent plus the coordinate inside). -/
theorem ev_blk0 (c : Dev nD) (t : Fin cfg0.N) :
    ev (xb0 V c t) = chunk 8192 2048 hN (ev (xa0 V c)) ⟨t.val, lt_8192 t⟩ := by
  funext l
  show V c main_arg0 (((cfg0.win 0).blk t).view.emb (ix1 l)) = V c main_arg0 (ix1 ⟨t.val * 2048 + l.val, _⟩)
  refine congrArg (V c main_arg0) ?_
  funext a
  apply Fin.ext
  match a with
  | ⟨0, _⟩ =>
    show win0_0.index t (0 : Fin 1) * 2048 + 1 * l.val = t.val * 2048 + l.val
    rw [(idx_in0 t).1, Nat.one_mul]

/-- The same for the second event array. -/
theorem ev_blk1 (c : Dev nD) (t : Fin cfg0.N) :
    ev (xb1 V c t) = chunk 8192 2048 hN (ev (xa1 V c)) ⟨t.val, lt_8192 t⟩ := by
  funext l
  show V c main_arg1 (((cfg0.win 1).blk t).view.emb (ix1 l)) = V c main_arg1 (ix1 ⟨t.val * 2048 + l.val, _⟩)
  refine congrArg (V c main_arg1) ?_
  funext a
  apply Fin.ext
  match a with
  | ⟨0, _⟩ =>
    show win0_1.index t (0 : Fin 1) * 2048 + 1 * l.val = t.val * 2048 + l.val
    rw [(idx_in0 t).2.1, Nat.one_mul]

/-- The same for the polarity array. -/
theorem ev_blk2 (c : Dev nD) (t : Fin cfg0.N) :
    ev (xb2 V c t) = chunk 8192 2048 hN (ev (xa2 V c)) ⟨t.val, lt_8192 t⟩ := by
  funext l
  show V c main_arg2 (((cfg0.win 2).blk t).view.emb (ix1 l)) = V c main_arg2 (ix1 ⟨t.val * 2048 + l.val, _⟩)
  refine congrArg (V c main_arg2) ?_
  funext a
  apply Fin.ext
  match a with
  | ⟨0, _⟩ =>
    show win0_2.index t (0 : Fin 1) * 2048 + 1 * l.val = t.val * 2048 + l.val
    rw [(idx_in0 t).2.2, Nat.one_mul]

/-! ## The accumulator point by point -/

/-- The accumulator after point `t`, at its literal type. -/
abbrev accAt0 (c : Dev nD) (n : ℕ) (hn : n < cfg0.N) : Vec Ideal S2x640x480 .f32 := (outsAt0 V c n hn).2

/-- At a reset point channel 0 holds zero plus the point's chunk's zero-polarity count. -/
theorem acc_reset_neg (c : Dev nD) (t : Fin cfg0.N) (h0 : t.val % 4096 = 0) (r : Fin 640) (w : Fin 480) :
    accAt0 V c t.val t.isLt (ix3 (0 : Fin 2) r w)
      = 0 + ((chunkCntNeg (ev (xa0 V c)) (ev (xa1 V c)) (ev (xa2 V c)) r.val w.val t.val : ℕ) : EReal) := by
  have h1 : ¬t.val % 4096 = 4095 := by omega
  show (outsAt0 V c t.val t.isLt).2 (ix3 (0 : Fin 2) r w) = _
  rw [outsAt0_A V c t h0 h1]
  dsimp only
  refine (sout0_A_0_neg c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xb0 V c t) (xb1 V c t) (xb2 V c t) r w).trans ?_
  rw [ev_blk0, ev_blk1, ev_blk2, chunkCntNeg_of_lt _ _ _ _ _ _ (lt_8192 t)]

/-- At a reset point channel 1 holds zero plus the point's chunk's nonzero-polarity count. -/
theorem acc_reset_pos (c : Dev nD) (t : Fin cfg0.N) (h0 : t.val % 4096 = 0) (r : Fin 640) (w : Fin 480) :
    accAt0 V c t.val t.isLt (ix3 (1 : Fin 2) r w)
      = 0 + ((chunkCntPos (ev (xa0 V c)) (ev (xa1 V c)) (ev (xa2 V c)) r.val w.val t.val : ℕ) : EReal) := by
  have h1 : ¬t.val % 4096 = 4095 := by omega
  show (outsAt0 V c t.val t.isLt).2 (ix3 (1 : Fin 2) r w) = _
  rw [outsAt0_A V c t h0 h1]
  dsimp only
  refine (sout0_A_0_pos c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xb0 V c t) (xb1 V c t) (xb2 V c t) r w).trans ?_
  rw [ev_blk0, ev_blk1, ev_blk2, chunkCntPos_of_lt _ _ _ _ _ _ (lt_8192 t)]

/-- At any other point channel 0 holds what the point before left plus the point's chunk's zero-polarity count. -/
theorem acc_step_neg (c : Dev nD) (t : Fin cfg0.N) (h0 : ¬t.val % 4096 = 0) (r : Fin 640) (w : Fin 480) :
    accAt0 V c t.val t.isLt (ix3 (0 : Fin 2) r w)
      = accAt0 V c (t.val - 1) (Nat.lt_of_le_of_lt (Nat.sub_le _ _) t.isLt) (ix3 (0 : Fin 2) r w)
        + ((chunkCntNeg (ev (xa0 V c)) (ev (xa1 V c)) (ev (xa2 V c)) r.val w.val t.val : ℕ) : EReal) := by
  show (outsAt0 V c t.val t.isLt).2 (ix3 (0 : Fin 2) r w) = (outsAt0 V c (t.val - 1) (Nat.lt_of_le_of_lt (Nat.sub_le _ _) t.isLt)).2 (ix3 (0 : Fin 2) r w) + _
  by_cases h1 : t.val % 4096 = 4095
  · rw [outsAt0_C V c t h0 h1]
    dsimp only
    refine (sout0_C_0_neg c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb0 V c t) (xb1 V c t) (xb2 V c t) (outsAt0 V c (t.val - 1) (Nat.lt_of_le_of_lt (Nat.sub_le _ _) t.isLt)).2 r w).trans ?_
    rw [ev_blk0, ev_blk1, ev_blk2, chunkCntNeg_of_lt _ _ _ _ _ _ (lt_8192 t)]
  · rw [outsAt0_B V c t h0 h1]
    dsimp only
    refine (sout0_B_0_neg c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xb0 V c t) (xb1 V c t) (xb2 V c t) (outsAt0 V c (t.val - 1) (Nat.lt_of_le_of_lt (Nat.sub_le _ _) t.isLt)).2 r w).trans ?_
    rw [ev_blk0, ev_blk1, ev_blk2, chunkCntNeg_of_lt _ _ _ _ _ _ (lt_8192 t)]

/-- At any other point channel 1 holds what the point before left plus the point's chunk's nonzero-polarity count. -/
theorem acc_step_pos (c : Dev nD) (t : Fin cfg0.N) (h0 : ¬t.val % 4096 = 0) (r : Fin 640) (w : Fin 480) :
    accAt0 V c t.val t.isLt (ix3 (1 : Fin 2) r w)
      = accAt0 V c (t.val - 1) (Nat.lt_of_le_of_lt (Nat.sub_le _ _) t.isLt) (ix3 (1 : Fin 2) r w)
        + ((chunkCntPos (ev (xa0 V c)) (ev (xa1 V c)) (ev (xa2 V c)) r.val w.val t.val : ℕ) : EReal) := by
  show (outsAt0 V c t.val t.isLt).2 (ix3 (1 : Fin 2) r w) = (outsAt0 V c (t.val - 1) (Nat.lt_of_le_of_lt (Nat.sub_le _ _) t.isLt)).2 (ix3 (1 : Fin 2) r w) + _
  by_cases h1 : t.val % 4096 = 4095
  · rw [outsAt0_C V c t h0 h1]
    dsimp only
    refine (sout0_C_0_pos c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb0 V c t) (xb1 V c t) (xb2 V c t) (outsAt0 V c (t.val - 1) (Nat.lt_of_le_of_lt (Nat.sub_le _ _) t.isLt)).2 r w).trans ?_
    rw [ev_blk0, ev_blk1, ev_blk2, chunkCntPos_of_lt _ _ _ _ _ _ (lt_8192 t)]
  · rw [outsAt0_B V c t h0 h1]
    dsimp only
    refine (sout0_B_0_pos c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xb0 V c t) (xb1 V c t) (xb2 V c t) (outsAt0 V c (t.val - 1) (Nat.lt_of_le_of_lt (Nat.sub_le _ _) t.isLt)).2 r w).trans ?_
    rw [ev_blk0, ev_blk1, ev_blk2, chunkCntPos_of_lt _ _ _ _ _ _ (lt_8192 t)]

/-- Channel 0 of the accumulator after point `n`: the sum of the zero-polarity counts of the chunks since the last
    reset — the accumulator's law with block length `4096` over the `8192` points. -/
theorem acc_neg (c : Dev nD) (r : Fin 640) (w : Fin 480) (n : ℕ) (hn : n < cfg0.N) :
    accAt0 V c n hn (ix3 (0 : Fin 2) r w)
      = ((psum (fun k => chunkCntNeg (ev (xa0 V c)) (ev (xa1 V c)) (ev (xa2 V c)) r.val w.val (n / 4096 * 4096 + k)) (n % 4096 + 1) : ℕ) : EReal) := by
  have hN8 : cfg0.N = 8192 := N_0
  have key := acc_psum_lt
    (fun m => if h : m < cfg0.N then accAt0 V c m h (ix3 (0 : Fin 2) r w) else 0)
    (fun m => chunkCntNeg (ev (xa0 V c)) (ev (xa1 V c)) (ev (xa2 V c)) r.val w.val m) 4096 (by norm_num) 8192
    (fun m hm hz => by
      have hm' : m < cfg0.N := by omega
      rw [dif_pos hm']
      exact acc_reset_neg V c ⟨m, hm'⟩ hz r w)
    (fun m hm hz => by
      have hm' : m < cfg0.N := by omega
      have hm1 : m - 1 < cfg0.N := by omega
      rw [dif_pos hm', dif_pos hm1]
      exact acc_step_neg V c ⟨m, hm'⟩ hz r w)
    n (by omega)
  rw [dif_pos hn] at key
  exact key

/-- Channel 1 of the accumulator after point `n`: the sum of the nonzero-polarity counts of the chunks since the last
    reset. -/
theorem acc_pos (c : Dev nD) (r : Fin 640) (w : Fin 480) (n : ℕ) (hn : n < cfg0.N) :
    accAt0 V c n hn (ix3 (1 : Fin 2) r w)
      = ((psum (fun k => chunkCntPos (ev (xa0 V c)) (ev (xa1 V c)) (ev (xa2 V c)) r.val w.val (n / 4096 * 4096 + k)) (n % 4096 + 1) : ℕ) : EReal) := by
  have hN8 : cfg0.N = 8192 := N_0
  have key := acc_psum_lt
    (fun m => if h : m < cfg0.N then accAt0 V c m h (ix3 (1 : Fin 2) r w) else 0)
    (fun m => chunkCntPos (ev (xa0 V c)) (ev (xa1 V c)) (ev (xa2 V c)) r.val w.val m) 4096 (by norm_num) 8192
    (fun m hm hz => by
      have hm' : m < cfg0.N := by omega
      rw [dif_pos hm']
      exact acc_reset_pos V c ⟨m, hm'⟩ hz r w)
    (fun m hm hz => by
      have hm' : m < cfg0.N := by omega
      have hm1 : m - 1 < cfg0.N := by omega
      rw [dif_pos hm', dif_pos hm1]
      exact acc_step_pos V c ⟨m, hm'⟩ hz r w)
    n (by omega)
  rw [dif_pos hn] at key
  exact key

/-! ## The result array after the region -/

/-- What the result array ends holding: at `(h, ch, r, w)` the count of channel `ch` (zero polarity for `0`,
    nonzero for `1`) at pixel `(r, w)` over the `4096` chunks of half `h`. -/
def G0 (c : Dev nD) : Vec Ideal S2x2x640x480 .f32 := fun i =>
  if (i 1).val = 0 then
    ((psum (fun k => chunkCntNeg (ev (xa0 V c)) (ev (xa1 V c)) (ev (xa2 V c)) (i 2).val (i 3).val ((i 0).val * 4096 + k)) 4096 : ℕ) : EReal)
  else
    ((psum (fun k => chunkCntPos (ev (xa0 V c)) (ev (xa1 V c)) (ev (xa2 V c)) (i 2).val (i 3).val ((i 0).val * 4096 + k)) 4096 : ℕ) : EReal)

theorem G0_neg (c : Dev nD) (h : Fin 2) (r : Fin 640) (w : Fin 480) :
    G0 V c (ix4 h (0 : Fin 2) r w)
      = ((psum (fun k => chunkCntNeg (ev (xa0 V c)) (ev (xa1 V c)) (ev (xa2 V c)) r.val w.val (h.val * 4096 + k)) 4096 : ℕ) : EReal) :=
  if_pos rfl

theorem G0_pos (c : Dev nD) (h : Fin 2) (r : Fin 640) (w : Fin 480) :
    G0 V c (ix4 h (1 : Fin 2) r w)
      = ((psum (fun k => chunkCntPos (ev (xa0 V c)) (ev (xa1 V c)) (ev (xa2 V c)) r.val w.val (h.val * 4096 + k)) 4096 : ℕ) : EReal) :=
  if_neg (show ¬((1 : Fin 2).val = 0) by decide)

/-- An element `(0, ch, r, w)` of the output block at point `t` is element `(t / 4096, ch, r, w)` of the result array. -/
theorem emb_out0 (t : Fin cfg0.N) (ch : Fin 2) (r : Fin 640) (w : Fin 480) :
    ((cfg0.win 3).blk t).view.emb (ix4 (0 : Fin 1) ch r w)
      = ix4 (⟨t.val / 4096, by have := lt_8192 t; omega⟩ : Fin 2) ch r w := by
  obtain ⟨e0, e1, e2, e3⟩ := idx_out0 t
  funext a
  apply Fin.ext
  match a with
  | ⟨0, _⟩ =>
    show win0_3.index t (0 : Fin 4) * 1 + 1 * 0 = t.val / 4096
    rw [e0, Nat.mul_one, Nat.mul_zero, Nat.add_zero]
  | ⟨1, _⟩ =>
    show win0_3.index t (1 : Fin 4) * 2 + 1 * ch.val = ch.val
    rw [e1, Nat.zero_mul, Nat.zero_add, Nat.one_mul]
  | ⟨2, _⟩ =>
    show win0_3.index t (2 : Fin 4) * 640 + 1 * r.val = r.val
    rw [e2, Nat.zero_mul, Nat.zero_add, Nat.one_mul]
  | ⟨3, _⟩ =>
    show win0_3.index t (3 : Fin 4) * 480 + 1 * w.val = w.val
    rw [e3, Nat.zero_mul, Nat.zero_add, Nat.one_mul]

/-- At a point that writes the output block back, the block's staging buffer holds the accumulator's two channels. -/
theorem stage_eq_acc (c : Dev nD) (t : Fin cfg0.N) (h0 : ¬t.val % 4096 = 0) (h1 : t.val % 4096 = 4095)
    (ch : Fin 2) (r : Fin 640) (w : Fin 480) :
    ((outsAt0 V c t.val t.isLt).1 : Vec Ideal S1x2x640x480 .f32) (ix4 (0 : Fin 1) ch r w)
      = accAt0 V c t.val t.isLt (ix3 ch r w) := by
  show (outsAt0 V c t.val t.isLt).1 (ix4 (0 : Fin 1) ch r w) = (outsAt0 V c t.val t.isLt).2 (ix3 ch r w)
  rw [outsAt0_C V c t h0 h1]
  dsimp only
  exact out0_C_3_apply c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb0 V c t) (xb1 V c t) (xb2 V c t) (outsAt0 V c (t.val - 1) (Nat.lt_of_le_of_lt (Nat.sub_le _ _) t.isLt)).2 ch r w

/-- What such a point writes back, element by element, is that element of `G0`. -/
theorem flushed_pt (c : Dev nD) (t : Fin cfg0.N) (h0 : ¬t.val % 4096 = 0) (h1 : t.val % 4096 = 4095)
    (y : S1x2x640x480.Idx) :
    ((outsAt0 V c t.val t.isLt).1 : Vec Ideal S1x2x640x480 .f32) y
      = G0 V c (((cfg0.win 3).blk t).view.emb y) := by
  obtain ⟨u, ch, r, w, rfl⟩ : ∃ (u : Fin 1) (ch : Fin 2) (r : Fin 640) (w : Fin 480), y = ix4 u ch r w :=
    ⟨y 0, y 1, y 2, y 3, eq_ix4 y⟩
  obtain rfl : u = 0 := Subsingleton.elim _ _
  have hlen : t.val % 4096 + 1 = 4096 := by omega
  rw [stage_eq_acc V c t h0 h1, emb_out0]
  by_cases hch : ch = 0
  · subst hch
    rw [acc_neg, G0_neg, hlen]
  · have hch1 : ch = 1 := Fin.ext (by
      have := ch.isLt
      have : ch.val ≠ 0 := fun e => hch (Fin.ext e)
      show ch.val = 1
      omega)
    subst hch1
    rw [acc_pos, G0_pos, hlen]

/-- So every point that writes the output block back writes its block of `G0`. -/
theorem flushed0_3_eq (c : Dev nD) (t : Fin cfg0.N) (hf : (cfg0.win 3).flush t = true) :
    (dat0 V c).flushed 3 t = ((cfg0.win 3).blk t).view.read (Elt Ideal) (G0 V c) := by
  have h1 : t.val % 4096 = 4095 := (flush0_3 t).mp hf
  have h0 : ¬t.val % 4096 = 0 := by omega
  show (cfg0.win 3).cut (grid0.coords t) ((dat0 V c).after 3 t) = _
  rw [after0_3]
  funext y
  exact flushed_pt V c t h0 h1 y

/-- An index of the result array is in point `t`'s block iff each coordinate is in the block's range on its axis. -/
theorem mem_blk0_3 (t : Fin cfg0.N) (i : S2x2x640x480.Idx) :
    i ∈ ((cfg0.win 3).blk t).view.set ↔ ∀ a : Fin 4, win0_3.index t a * S1x2x640x480.size a ≤ (i a).val
      ∧ (i a).val < win0_3.index t a * S1x2x640x480.size a + S1x2x640x480.size a := by
  show i ∈ ((View.whole main_v0).slice (win0_3.rect t)).set ↔ _
  rw [View.set_slice_whole, Rect.mem_set_unit]
  exact Iff.rfl

/-- THE RESULT ARRAY after the region, element by element: half `h` is written back at the last point of half `h`. -/
theorem final0_3_apply (c : Dev nD) (h : Fin 2) (ch : Fin 2) (r : Fin 640) (w : Fin 480) :
    (dat0 V c).arrAt 3 cfg0.N (ix4 h ch r w) = G0 V c (ix4 h ch r w) := by
  have hN8 : cfg0.N = 8192 := N_0
  have hh : h.val < 2 := h.isLt
  let t : Fin cfg0.N := ⟨h.val * 4096 + 4095, by omega⟩
  have htv : t.val = h.val * 4096 + 4095 := rfl
  have hf : (cfg0.win 3).flush t = true := (flush0_3 t).mpr (by omega)
  refine (dat0 V c).arrAt_apply_of_mem 3 (G0 V c) (fun t hf => flushed0_3_eq V c t hf) cfg0.N t (ix4 h ch r w) t.isLt hf ?_
  rw [mem_blk0_3]
  obtain ⟨e0, e1, e2, e3⟩ := idx_out0 t
  have hch : ch.val < 2 := ch.isLt
  have hr : r.val < 640 := r.isLt
  have hw : w.val < 480 := w.isLt
  intro a
  match a with
  | ⟨0, _⟩ =>
    show win0_3.index t (0 : Fin 4) * 1 ≤ h.val ∧ h.val < win0_3.index t (0 : Fin 4) * 1 + 1
    rw [e0, htv]; omega
  | ⟨1, _⟩ =>
    show win0_3.index t (1 : Fin 4) * 2 ≤ ch.val ∧ ch.val < win0_3.index t (1 : Fin 4) * 2 + 2
    rw [e1]; omega
  | ⟨2, _⟩ =>
    show win0_3.index t (2 : Fin 4) * 640 ≤ r.val ∧ r.val < win0_3.index t (2 : Fin 4) * 640 + 640
    rw [e2]; omega
  | ⟨3, _⟩ =>
    show win0_3.index t (3 : Fin 4) * 480 ≤ w.val ∧ w.val < win0_3.index t (3 : Fin 4) * 480 + 480
    rw [e3]; omega

/-- The two halves' zero-polarity entries at a pixel are naturals that add up to the zero-polarity count there. -/
theorem total_neg (c : Dev nD) (r : Fin 640) (w : Fin 480) :
    ∃ n0 n0' : ℕ, (dat0 V c).arrAt 3 cfg0.N (ix4 (0 : Fin 2) (0 : Fin 2) r w) = (n0 : EReal)
      ∧ (dat0 V c).arrAt 3 cfg0.N (ix4 (1 : Fin 2) (0 : Fin 2) r w) = (n0' : EReal)
      ∧ n0 + n0' = cntNeg (ev (xa0 V c)) (ev (xa1 V c)) (ev (xa2 V c)) r.val w.val := by
  refine ⟨_, _, (final0_3_apply V c 0 0 r w).trans (G0_neg V c 0 r w),
    (final0_3_apply V c 1 0 r w).trans (G0_neg V c 1 r w), ?_⟩
  have hsum := halves_neg (ev (xa0 V c)) (ev (xa1 V c)) (ev (xa2 V c)) r.val w.val
  rw [div_0, div_8191] at hsum
  show psum (fun k => chunkCntNeg (ev (xa0 V c)) (ev (xa1 V c)) (ev (xa2 V c)) r.val w.val (0 * 4096 + k)) 4096
    + psum (fun k => chunkCntNeg (ev (xa0 V c)) (ev (xa1 V c)) (ev (xa2 V c)) r.val w.val (1 * 4096 + k)) 4096 = _
  rw [Nat.zero_mul, Nat.one_mul]
  exact hsum

/-- The two halves' nonzero-polarity entries at a pixel are naturals that add up to the nonzero-polarity count there. -/
theorem total_pos (c : Dev nD) (r : Fin 640) (w : Fin 480) :
    ∃ n1 n1' : ℕ, (dat0 V c).arrAt 3 cfg0.N (ix4 (0 : Fin 2) (1 : Fin 2) r w) = (n1 : EReal)
      ∧ (dat0 V c).arrAt 3 cfg0.N (ix4 (1 : Fin 2) (1 : Fin 2) r w) = (n1' : EReal)
      ∧ n1 + n1' = cntPos (ev (xa0 V c)) (ev (xa1 V c)) (ev (xa2 V c)) r.val w.val := by
  refine ⟨_, _, (final0_3_apply V c 0 1 r w).trans (G0_pos V c 0 r w),
    (final0_3_apply V c 1 1 r w).trans (G0_pos V c 1 r w), ?_⟩
  have hsum := halves_pos (ev (xa0 V c)) (ev (xa1 V c)) (ev (xa2 V c)) r.val w.val
  rw [div_0, div_8191] at hsum
  show psum (fun k => chunkCntPos (ev (xa0 V c)) (ev (xa1 V c)) (ev (xa2 V c)) r.val w.val (0 * 4096 + k)) 4096
    + psum (fun k => chunkCntPos (ev (xa0 V c)) (ev (xa1 V c)) (ev (xa2 V c)) r.val w.val (1 * 4096 + k)) 4096 = _
  rw [Nat.zero_mul, Nat.one_mul]
  exact hsum

end Cert.KernelIdeal.Gen

end
-- ==== Proof.ValueKI_R1.lean ====
/-
  The array the second region (the combine kernel) leaves, as one function of the arrays it finds.

  The region's grid has ONE point and each of its three windows' blocks is the whole of its array (every block
  index is 0). So the block an input window hands the body is the array itself, the one write-back covers the whole
  output array, and the output array ends holding what the body leaves in its buffer: one store, through the whole
  buffer, of the body's payload of the two halves of the first array along its leading axis (leading coordinate 0,
  leading coordinate 1) and of the second array.
-/
import proofs.«419753_j13322988552663_3_alg».proof.Proof.FrameKI_R1
import Idealize.ShloMosaic.Lib.Pipeline.Value
import Idealize.ShloMosaic.Lib.ValueIdx

noncomputable section

namespace Cert.Hist.R1

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-- The zero offsets of a rank-2 rectangle, as the constant function. -/
theorem hz1_2 : (![0, 0] : Fin 2 → Nat) = fun _ => 0 := funext fun a => by fin_cases a <;> rfl

/-- The two halves of the first input along its leading axis, as arrays of extent 1 × 2 × 640 × 480. -/
def half0 (X : Vec F S2x2x640x480 .f32) : Vec F S1x2x640x480 .f32 := View.ld X r1_0a
def half1 (X : Vec F S2x2x640x480 .f32) : Vec F S1x2x640x480 .f32 := View.ld X r1_0b

/-- The leading half reads the input at leading coordinate 0, -/
theorem half0_apply (X : Vec F S2x2x640x480 .f32) (ch : Fin 2) (r : Fin 640) (w : Fin 480) :
    half0 X (ix4 (0 : Fin 1) ch r w) = X (ix4 (0 : Fin 2) ch r w) := by
  show X (r1_0a.idx (ix4 (0 : Fin 1) ch r w)) = X (ix4 (0 : Fin 2) ch r w)
  congr 1
  funext a; apply Fin.ext
  match a with
  | ⟨0, _⟩ => show 0 + 1 * 0 = 0; rfl
  | ⟨1, _⟩ => show 0 + 1 * ch.val = ch.val; omega
  | ⟨2, _⟩ => show 0 + 1 * r.val = r.val; omega
  | ⟨3, _⟩ => show 0 + 1 * w.val = w.val; omega

/-- the trailing half at leading coordinate 1. -/
theorem half1_apply (X : Vec F S2x2x640x480 .f32) (ch : Fin 2) (r : Fin 640) (w : Fin 480) :
    half1 X (ix4 (0 : Fin 1) ch r w) = X (ix4 (1 : Fin 2) ch r w) := by
  show X (r1_0b.idx (ix4 (0 : Fin 1) ch r w)) = X (ix4 (1 : Fin 2) ch r w)
  congr 1
  funext a; apply Fin.ext
  match a with
  | ⟨0, _⟩ => show 1 + 1 * 0 = 1; rfl
  | ⟨1, _⟩ => show 0 + 1 * ch.val = ch.val; omega
  | ⟨2, _⟩ => show 0 + 1 * r.val = r.val; omega
  | ⟨3, _⟩ => show 0 + 1 * w.val = w.val; omega

/-- What the body leaves in the output buffer is the payload of the two halves and the second input: one store
    through the whole buffer leaves its payload, and a load through the whole buffer reads its contents. -/
theorem out1_2_eq (x0 : Vec F S2x2x640x480 .f32) (x1 : Vec F S640x480 .f32) :
    out1_2 x0 x1 = k1_pay1 (half0 x0) (half1 x0) x1 := by
  unfold out1_2 half0 half1
  rw [View.canon_unit_zero hz1_2, View.ld_unit_zero (S := S640x480) hz1_2]

/-- The first input's block at the one grid point is the whole array: every block index is 0. -/
theorem read_blk1_0 (t : Fin cfg1.N) (X : Vec F S2x2x640x480 .f32) : ((cfg1.win 0).blk t).view.read (Elt F) X = X := by
  funext j
  show X (((cfg1.win 0).blk t).view.emb j) = X j
  congr 1
  funext a; apply Fin.ext
  match a with
  | ⟨0, _⟩ => show 0 * 2 + 1 * (j 0).val = (j 0).val; omega
  | ⟨1, _⟩ => show 0 * 2 + 1 * (j 1).val = (j 1).val; omega
  | ⟨2, _⟩ => show 0 * 640 + 1 * (j 2).val = (j 2).val; omega
  | ⟨3, _⟩ => show 0 * 480 + 1 * (j 3).val = (j 3).val; omega

/-- Likewise the second input's -/
theorem read_blk1_1 (t : Fin cfg1.N) (X : Vec F S640x480 .f32) : ((cfg1.win 1).blk t).view.read (Elt F) X = X := by
  funext j
  show X (((cfg1.win 1).blk t).view.emb j) = X j
  congr 1
  funext a; apply Fin.ext
  match a with
  | ⟨0, _⟩ => show 0 * 640 + 1 * (j 0).val = (j 0).val; omega
  | ⟨1, _⟩ => show 0 * 480 + 1 * (j 1).val = (j 1).val; omega

/-- and the output's. -/
theorem read_blk1_2 (t : Fin cfg1.N) (X : Vec F S640x480 .f32) : ((cfg1.win 2).blk t).view.read (Elt F) X = X := by
  funext j
  show X (((cfg1.win 2).blk t).view.emb j) = X j
  congr 1
  funext a; apply Fin.ext
  match a with
  | ⟨0, _⟩ => show 0 * 640 + 1 * (j 0).val = (j 0).val; omega
  | ⟨1, _⟩ => show 0 * 480 + 1 * (j 1).val = (j 1).val; omega

/-- So the input windows' blocks are the arrays as the region finds them. -/
theorem iblk1_0_eq (c : Dev nD) (t : Fin cfg1.N) : iblk1 V c 0 t = V c main_v0 := read_blk1_0 t (V c main_v0)
theorem iblk1_1_eq (c : Dev nD) (t : Fin cfg1.N) : iblk1 V c 1 t = V c main_arg3 := read_blk1_1 t (V c main_arg3)

/-- Every index of the output array lies in the one point's block. -/
theorem mem_blk1_2 (i : S640x480.Idx) : i ∈ ((cfg1.win 2).blk t1_0).view.set := by
  show i ∈ ((View.whole main_v1).slice (win1_2.rect t1_0)).set
  rw [View.set_slice_whole, Rect.mem_set_unit]
  intro a
  match a with
  | ⟨0, _⟩ => show 0 * 640 ≤ (i 0).val ∧ (i 0).val < 0 * 640 + 640; have h0 : (i 0).val < 640 := (i 0).isLt; omega
  | ⟨1, _⟩ => show 0 * 480 ≤ (i 1).val ∧ (i 1).val < 0 * 480 + 480; have h1 : (i 1).val < 480 := (i 1).isLt; omega

/-- THE ARRAY REGION 1 LEAVES: the output array ends holding what the body leaves of the two input arrays as the
    region finds them: the one point writes back the whole array. -/
theorem arr1_2 (c : Dev nD) : (dat1 V c).arrAt 2 cfg1.N = out1_2 (V c main_v0) (V c main_arg3) := by
  refine (dat1 V c).arrAt_eq_of_cover 2 (out1_2 (V c main_v0) (V c main_arg3)) (fun t _ => ?_) (fun i => ⟨t1_0, flush1_2 t1_0, mem_blk1_2 i⟩)
  show (cfg1.win 2).cut (grid1.coords t) ((dat1 V c).after 2 t) = _
  rw [after1_2, iblk1_0_eq, iblk1_1_eq, read_blk1_2]
  rfl

/-- In closed form: the payload of the two halves of the first array and the second array. -/
theorem arr1_2_eq (c : Dev nD) :
    (dat1 V c).arrAt 2 cfg1.N = k1_pay1 (half0 (V c main_v0)) (half1 (V c main_v0)) (V c main_arg3) := by
  rw [arr1_2, out1_2_eq]

end Cert.Hist.R1

end
-- ==== Proof.KernelValue.lean ====
/-
  The idealized kernel's result array is the specification `G` of its four argument arrays.

  Region 0 leaves in the intermediate array, at `(h, ch, r, w)`, the number of events of half `h` at pixel `(r, w)` whose
  polarity word is zero (`ch = 0`) or nonzero (`ch = 1`): each chunk's count is a sum of products of one-hot rows, the
  accumulator adds the chunks of a half, and the two halves' counts add up to the count over all events. Region 1 adds the
  halves, compares each total with zero and combines with the picture: `(pic - 15·[0 < total₀]) + 15·[0 < total₁]`,
  which is `G` at `(r, w)` word for word.
-/
import proofs.«419753_j13322988552663_3_alg».proof.Proof.FrameKI
import proofs.«419753_j13322988552663_3_alg».proof.Proof.ValueKI_R0
import proofs.«419753_j13322988552663_3_alg».proof.Proof.ValueKI_R1
import proofs.«419753_j13322988552663_3_alg».proof.Proof.PayValue
import proofs.«419753_j13322988552663_3_alg».proof.Proof.HistSpec

noncomputable section

namespace Cert.Hist.Ker

open Idealize.ShloMosaic Idealize.ShloMosaic.TcCoe Idealize.SL.Sem ValueIdx
open Cert.KernelIdeal Cert.KernelIdeal.Gen Cert.Hist

/-- Pixel by pixel: region 1's output array, over what region 0 left, is `G` of the launch contents. -/
theorem kernel_eq_G (m : (ℓ : Loc nD τ sig) → Buf (Elt Ideal) ℓ) (c : Dev nD) :
    (dat1 (F := Ideal) (VB m) c).arrAt 2 cfg1.N
      = Cert.Hist.G (m ((c.tc : Thread nD τ).loc main_arg0)) (m ((c.tc : Thread nD τ).loc main_arg1))
          (m ((c.tc : Thread nD τ).loc main_arg2)) (m ((c.tc : Thread nD τ).loc main_arg3)) := by
  funext j
  obtain ⟨r, w, rfl⟩ : ∃ (r : Fin 640) (w : Fin 480), j = ix2 r w := ⟨j 0, j 1, eq_ix2 j⟩
  obtain ⟨n0, n0', h0, h0', hn⟩ := total_neg (VA m) c r w
  obtain ⟨n1, n1', h1, h1', hp⟩ := total_pos (VA m) c r w
  have e0 : Cert.Hist.R1.half0 (VB m c main_v0) (ix4 (0 : Fin 1) (0 : Fin 2) r w) = (n0 : EReal) :=
    (Cert.Hist.R1.half0_apply _ 0 r w).trans ((congrFun (VB_main_v0 m c) _).trans h0)
  have e0' : Cert.Hist.R1.half1 (VB m c main_v0) (ix4 (0 : Fin 1) (0 : Fin 2) r w) = (n0' : EReal) :=
    (Cert.Hist.R1.half1_apply _ 0 r w).trans ((congrFun (VB_main_v0 m c) _).trans h0')
  have e1 : Cert.Hist.R1.half0 (VB m c main_v0) (ix4 (0 : Fin 1) (1 : Fin 2) r w) = (n1 : EReal) :=
    (Cert.Hist.R1.half0_apply _ 1 r w).trans ((congrFun (VB_main_v0 m c) _).trans h1)
  have e1' : Cert.Hist.R1.half1 (VB m c main_v0) (ix4 (0 : Fin 1) (1 : Fin 2) r w) = (n1' : EReal) :=
    (Cert.Hist.R1.half1_apply _ 1 r w).trans ((congrFun (VB_main_v0 m c) _).trans h1')
  refine (congrFun (Cert.Hist.R1.arr1_2_eq (VB m) c) (ix2 r w)).trans ?_
  refine (Cert.Hist.Pay.k1pay_apply r w _ _ _ n0 n0' n1 n1' e0 e0' e1 e1').trans ?_
  rw [hn, hp, VB_main_arg3 m c]
  rfl

end Cert.Hist.Ker

end
-- ==== Proof.LibScatterFold.lean ====
/-
  A scatter, read at one index of its result.

  The host scatter is a left fold over the update indices in row-major order: each update whose target lies
  inside the operand replaces the element at its target by the combiner applied to that element and the update,
  and an update whose target lies outside is dropped. Reading the folded array at ONE index p turns the fold of
  arrays into a fold of elements: only the updates whose target is p touch the element at p, and each of them
  combines into it.

  When the combiner is the signed maximum, the operand's element is the word 0 or 1 and every update is the word
  0 or 1, the folded element is the word 1 exactly when it started at 1 or some update that lands on p is 1.
-/
import Idealize.ShloMosaic.PureOps.ShapeOps

namespace Cert.Hist.ScatterFold

open Idealize.ShloMosaic

/-- The fold of arrays, read at p, is the fold of the elements at p: an update changes the element at p only
    when p is its target. -/
theorem foldl_step_apply {α ι : Type} {s : Shape} (tgt : ι → Option s.Idx) (val : ι → α) (f : α → α → α)
    (L : List ι) (x : s.Idx → α) (p : s.Idx) :
    (L.foldl (fun r n =>
        match tgt n with
        | some i => fun i' => if i' = i then f (r i) (val n) else r i'
        | none => r) x) p
      = L.foldl (fun acc n => if tgt n = some p then f acc (val n) else acc) (x p) := by
  induction L generalizing x with
  | nil => rfl
  | cons n L ih =>
    rw [List.foldl_cons, List.foldl_cons, ih]
    congr 1
    cases h : tgt n with
    | none => simp
    | some i =>
      by_cases hp : p = i
      · subst hp; simp
      · have : ¬ (some i = some p) := fun e => hp (Option.some.inj e).symm
        simp [hp, this]

/-- The host scatter read at the result index p: the left fold, over the update indices in row-major order, that
    combines into the operand's element at p every update whose target is p. -/
theorem scatter_apply {α : Type} {w : Nat} {s si u : Shape} (d : ScatterDims s si u) (f : α → α → α) (x : s.Idx → α)
    (idx : IVec si w) (upd : u.Idx → α) (p : s.Idx) :
    Host.scatter d f x idx upd p
      = (List.finRange u.numel).foldl
          (fun acc n => if d.resultIdx? (u.rowMajor.symm n) idx = some p then f acc (upd (u.rowMajor.symm n)) else acc)
          (x p) :=
  foldl_step_apply (fun n => d.resultIdx? (u.rowMajor.symm n) idx) (fun n => upd (u.rowMajor.symm n)) f _ x p

/-- The signed maximum of two words that are each 0 or 1 is again 0 or 1, and is 1 exactly when one of them is. -/
theorem maxsi_bits {a b : BitVec 32} (ha : a = 0#32 ∨ a = 1#32) (hb : b = 0#32 ∨ b = 1#32) :
    (IntOp.maxsi a b = 0#32 ∨ IntOp.maxsi a b = 1#32) ∧ (IntOp.maxsi a b = 1#32 ↔ a = 1#32 ∨ b = 1#32) := by
  rcases ha with rfl | rfl <;> rcases hb with rfl | rfl <;> decide

/-- A fold by signed maximum of 0/1 words, from a 0/1 word, stays a 0/1 word, and is 1 exactly when it started at 1
    or one of the words folded in (those the predicate selects) is 1. -/
theorem foldl_maxsi_bits {ι : Type} (hit : ι → Prop) [DecidablePred hit] (val : ι → BitVec 32)
    (hval : ∀ n, val n = 0#32 ∨ val n = 1#32) (L : List ι) (acc : BitVec 32) (hacc : acc = 0#32 ∨ acc = 1#32) :
    (L.foldl (fun acc n => if hit n then IntOp.maxsi acc (val n) else acc) acc = 0#32
        ∨ L.foldl (fun acc n => if hit n then IntOp.maxsi acc (val n) else acc) acc = 1#32)
      ∧ (L.foldl (fun acc n => if hit n then IntOp.maxsi acc (val n) else acc) acc = 1#32
          ↔ acc = 1#32 ∨ ∃ n ∈ L, hit n ∧ val n = 1#32) := by
  induction L generalizing acc with
  | nil => exact ⟨hacc, by simp⟩
  | cons n L ih =>
    rw [List.foldl_cons]
    by_cases hn : hit n
    · rw [if_pos hn]
      obtain ⟨h01, h1⟩ := maxsi_bits hacc (hval n)
      obtain ⟨ih01, ih1⟩ := ih _ h01
      refine ⟨ih01, ih1.trans ?_⟩
      rw [h1]
      constructor
      · rintro ((h | h) | ⟨m, hm, hh⟩)
        · exact Or.inl h
        · exact Or.inr ⟨n, List.mem_cons_self, hn, h⟩
        · exact Or.inr ⟨m, List.mem_cons_of_mem _ hm, hh⟩
      · rintro (h | ⟨m, hm, hh⟩)
        · exact Or.inl (Or.inl h)
        · rcases List.mem_cons.1 hm with rfl | hm'
          · exact Or.inl (Or.inr hh.2)
          · exact Or.inr ⟨m, hm', hh⟩
    · rw [if_neg hn]
      obtain ⟨ih01, ih1⟩ := ih _ hacc
      refine ⟨ih01, ih1.trans ?_⟩
      constructor
      · rintro (h | ⟨m, hm, hh⟩)
        · exact Or.inl h
        · exact Or.inr ⟨m, List.mem_cons_of_mem _ hm, hh⟩
      · rintro (h | ⟨m, hm, hh⟩)
        · exact Or.inl h
        · rcases List.mem_cons.1 hm with rfl | hm'
          · exact absurd hh.1 hn
          · exact Or.inr ⟨m, hm', hh⟩

/-- A scatter of 0/1 updates under the signed maximum into an operand whose element at p is the zero word, read at
    p: the word 1 if some update whose target is p is 1, and the word 0 if none is. -/
theorem scatter_maxsi_bits_apply {w : Nat} {s si u : Shape} (d : ScatterDims s si u) (x : s.Idx → BitVec 32)
    (idx : IVec si w) (upd : u.Idx → BitVec 32) (p : s.Idx) (hx : x p = 0#32)
    (hupd : ∀ j, upd j = 0#32 ∨ upd j = 1#32) (P : Prop) [Decidable P]
    (hP : P ↔ ∃ j : u.Idx, d.resultIdx? j idx = some p ∧ upd j = 1#32) :
    Host.scatter d IntOp.maxsi x idx upd p = if P then 1#32 else 0#32 := by
  rw [scatter_apply]
  obtain ⟨h01, h1⟩ := foldl_maxsi_bits (fun n : Fin u.numel => d.resultIdx? (u.rowMajor.symm n) idx = some p)
    (fun n => upd (u.rowMajor.symm n)) (fun n => hupd _) (List.finRange u.numel) (x p) (Or.inl hx)
  have hiff : (∃ n ∈ List.finRange u.numel, d.resultIdx? (u.rowMajor.symm n) idx = some p ∧ upd (u.rowMajor.symm n) = 1#32)
      ↔ P := by
    rw [hP]
    constructor
    · rintro ⟨n, _, h⟩; exact ⟨_, h⟩
    · rintro ⟨j, h⟩
      exact ⟨u.rowMajor j, List.mem_finRange _, by rw [Equiv.symm_apply_apply]; exact h⟩
  by_cases hp : P
  · rw [if_pos hp]
    exact h1.2 (Or.inr (hiff.2 hp))
  · rw [if_neg hp]
    rcases h01 with h | h
    · exact h
    · rcases h1.1 h with h' | h'
      · rw [hx] at h'; exact absurd h' (by decide)
      · exact absurd (hiff.1 h') hp

end Cert.Hist.ScatterFold
-- ==== Proof.RefValue.lean ====
/-
  The reference program's result, as the function of the four argument arrays that the specification names.

  The reference normalises each coordinate word (a negative word has the axis extent added), stacks the two
  coordinate arrays as the rows (x e, y e) of an index array, and scatters a 0/1 update per event into a picture of
  zero words, keeping the signed maximum of what lands on a pixel: once with the update "polarity word is zero",
  once with its complement. The two masks, converted to floats and scaled by fifteen, are subtracted from and
  added to the picture.

  With both coordinate words inside their axes the normalisation does nothing, every update lands on the pixel
  (x e, y e), and the maximum of 0/1 updates landing on a pixel is 1 exactly when one of them is 1: when the
  count of such events there is positive.
-/
import proofs.«419753_j13322988552663_3_alg».proof.Proof.Gen.ReferenceIdeal.Read
import proofs.«419753_j13322988552663_3_alg».proof.Proof.HistSpec
import proofs.«419753_j13322988552663_3_alg».proof.Proof.LibScatterFold
import Mathlib.Data.Finset.Card
import Mathlib.Data.Finset.Filter

noncomputable section

namespace Cert.Hist.Ref

open Cert.ReferenceIdeal Cert.ReferenceIdeal.Gen Cert.ReferenceIdeal.Read Idealize.ShloMosaic Idealize.ShloMosaic.ValueIdx

/-- The reference's result as the run of its operations states it, over the four argument arrays. -/
def refTerm (a0 a1 a2 : IVec S16777216 32) (a3 : FVec Ideal S640x480 .f32) : FVec Ideal S640x480 .f32 :=
  addf (subf (a3) (mulf (broadcastInDim S640x480 ![] bcast_S_S640x480 (constant (F := Ideal) S_ .f32 0x41700000#32)) (sitofp (F := Ideal) .f32 (Host.scatter scatter_S640x480_S16777216x2_S16777216_n_01_01_1 IntOp.maxsi (broadcastInDim S640x480 ![] bcast_S_S640x480 (constantI S_ 32 0#32)) (concatenate S16777216x2 1 [⟨S16777216x1, (broadcastInDim S16777216x1 ![0] bcast_S16777216_S16777216x1_0 (select (cmpi .slt (a0) (broadcastInDim S16777216 ![] bcast_S_S16777216 (constantI S_ 32 0#32))) (addi (a0) (broadcastInDim S16777216 ![] bcast_S_S16777216 (constantI S_ 32 640#32))) (a0)))⟩, ⟨S16777216x1, (broadcastInDim S16777216x1 ![0] bcast_S16777216_S16777216x1_0 (select (cmpi .slt (a1) (broadcastInDim S16777216 ![] bcast_S_S16777216 (constantI S_ 32 0#32))) (addi (a1) (broadcastInDim S16777216 ![] bcast_S_S16777216 (constantI S_ 32 480#32))) (a1)))⟩] concatenates_S16777216x1_S16777216x1_S16777216x2_d1) (extui 32 (cmpi .eq (a2) (broadcastInDim S16777216 ![] bcast_S_S16777216 (constantI S_ 32 0#32))) natLt_1_32))))) (mulf (broadcastInDim S640x480 ![] bcast_S_S640x480 (constant (F := Ideal) S_ .f32 0x41700000#32)) (sitofp (F := Ideal) .f32 (Host.scatter scatter_S640x480_S16777216x2_S16777216_n_01_01_1 IntOp.maxsi (broadcastInDim S640x480 ![] bcast_S_S640x480 (constantI S_ 32 0#32)) (concatenate S16777216x2 1 [⟨S16777216x1, (broadcastInDim S16777216x1 ![0] bcast_S16777216_S16777216x1_0 (select (cmpi .slt (a0) (broadcastInDim S16777216 ![] bcast_S_S16777216 (constantI S_ 32 0#32))) (addi (a0) (broadcastInDim S16777216 ![] bcast_S_S16777216 (constantI S_ 32 640#32))) (a0)))⟩, ⟨S16777216x1, (broadcastInDim S16777216x1 ![0] bcast_S16777216_S16777216x1_0 (select (cmpi .slt (a1) (broadcastInDim S16777216 ![] bcast_S_S16777216 (constantI S_ 32 0#32))) (addi (a1) (broadcastInDim S16777216 ![] bcast_S_S16777216 (constantI S_ 32 480#32))) (a1)))⟩] concatenates_S16777216x1_S16777216x1_S16777216x2_d1) (subi (broadcastInDim S16777216 ![] bcast_S_S16777216 (constantI S_ 32 1#32)) (extui 32 (cmpi .eq (a2) (broadcastInDim S16777216 ![] bcast_S_S16777216 (constantI S_ 32 0#32))) natLt_1_32)))))

/-- It is the last of the reference's operations read one at a time. -/
theorem refTerm_eq_val (a0 a1 a2 : IVec S16777216 32) (a3 : FVec Ideal S640x480 .f32) :
    refTerm a0 a1 a2 a3 = val_main_v41 (F := Ideal) a0 a1 a2 a3 := rfl

/-- The scatter's dimension numbers: both operand axes inserted, the index vector along axis 1 of the index array. -/
abbrev D : ScatterDims S640x480 S16777216x2 S16777216 := scatter_S640x480_S16777216x2_S16777216_n_01_01_1

/-! ## Where an update lands -/

/-- The update of event e reads component c of its target at row e, column c of the index array. -/
theorem siIdx_eq (e : Fin 16777216) (c : Fin D.scatterDimsToOperandDims.length) :
    D.siIdx (ix1 e) c = ix2 e (⟨c.val, c.isLt⟩ : Fin 2) := by
  funext b
  match b with
  | ⟨0, _⟩ => exact Fin.ext rfl
  | ⟨1, _⟩ => exact Fin.ext rfl

/-- Both operand axes are inserted, so an update has no window coordinate. -/
theorem window_zero (j : S16777216.Idx) (a : Fin 2) : D.window j a = 0 := by
  unfold ScatterDims.window
  exact dif_neg (by show a ∉ ([] : List (Fin 2)); exact List.not_mem_nil)

/-- The target's coordinate on axis 0 is the index array's word at row e, column 0, read signed … -/
theorem start_eq0 (e : Fin 16777216) (idx : IVec S16777216x2 32) :
    D.start (ix1 e) idx (0 : Fin 2) = (idx (ix2 e (0 : Fin 2))).toInt := by
  unfold ScatterDims.start
  rw [dif_pos (by decide), siIdx_eq]; rfl

/-- … and on axis 1 the word at column 1. -/
theorem start_eq1 (e : Fin 16777216) (idx : IVec S16777216x2 32) :
    D.start (ix1 e) idx (1 : Fin 2) = (idx (ix2 e (1 : Fin 2))).toInt := by
  unfold ScatterDims.start
  rw [dif_pos (by decide), siIdx_eq]; rfl

/-- With both words of row e inside the picture, the update of event e lands on p exactly when they are p's
    coordinates. -/
theorem resultIdx_iff (e : Fin 16777216) (idx : IVec S16777216x2 32)
    (h0 : 0 ≤ (idx (ix2 e (0 : Fin 2))).toInt ∧ (idx (ix2 e (0 : Fin 2))).toInt < 640)
    (h1 : 0 ≤ (idx (ix2 e (1 : Fin 2))).toInt ∧ (idx (ix2 e (1 : Fin 2))).toInt < 480)
    (p : S640x480.Idx) :
    D.resultIdx? (ix1 e) idx = some p
      ↔ (idx (ix2 e (0 : Fin 2))).toInt = ((p 0).val : ℤ) ∧ (idx (ix2 e (1 : Fin 2))).toInt = ((p 1).val : ℤ) := by
  have s0 : D.start (ix1 e) idx (0 : Fin 2) + D.window (ix1 e) (0 : Fin 2) = (idx (ix2 e (0 : Fin 2))).toInt := by
    rw [start_eq0, window_zero]; simp
  have s1 : D.start (ix1 e) idx (1 : Fin 2) + D.window (ix1 e) (1 : Fin 2) = (idx (ix2 e (1 : Fin 2))).toInt := by
    rw [start_eq1, window_zero]; simp
  have H : ∀ a, 0 ≤ D.start (ix1 e) idx a + D.window (ix1 e) a
      ∧ D.start (ix1 e) idx a + D.window (ix1 e) a < S640x480.size a := by
    intro a
    match a with
    | ⟨0, _⟩ => exact ⟨s0 ▸ h0.1, s0 ▸ h0.2⟩
    | ⟨1, _⟩ => exact ⟨s1 ▸ h1.1, s1 ▸ h1.2⟩
  unfold ScatterDims.resultIdx?
  rw [dif_pos H, Option.some.injEq]
  constructor
  · intro h
    have e0 : (D.start (ix1 e) idx (0 : Fin 2) + D.window (ix1 e) (0 : Fin 2)).toNat = (p 0).val :=
      congrArg (fun q : S640x480.Idx => (q 0).val) h
    have e1 : (D.start (ix1 e) idx (1 : Fin 2) + D.window (ix1 e) (1 : Fin 2)).toNat = (p 1).val :=
      congrArg (fun q : S640x480.Idx => (q 1).val) h
    rw [s0] at e0; rw [s1] at e1
    have := h0.1; have := h1.1
    constructor <;> omega
  · rintro ⟨e0, e1⟩
    funext a
    refine Fin.ext ?_
    match a with
    | ⟨0, _⟩ =>
      show (D.start (ix1 e) idx (0 : Fin 2) + D.window (ix1 e) (0 : Fin 2)).toNat = (p 0).val
      rw [s0]; omega
    | ⟨1, _⟩ =>
      show (D.start (ix1 e) idx (1 : Fin 2) + D.window (ix1 e) (1 : Fin 2)).toNat = (p 1).val
      rw [s1]; omega

/-! ## The index array and the updates -/

/-- A word that is not negative is left alone by "add the extent when negative". -/
theorem norm_id (x N : BitVec 32) (h : 0 ≤ x.toInt) :
    Scalar.select (IntOp.cmpi .slt x 0#32) (IntOp.addi x N) x = x := by
  have hc : IntOp.cmpi .slt x 0#32 = 0#1 := by
    show BitVec.ofBool (x.slt 0#32) = 0#1
    rw [BitVec.slt_eq_decide, decide_eq_false (by simpa using h)]
    rfl
  rw [hc, select_zero]

/-- A rank-1 array at an index is the event function at the index's coordinate. -/
theorem ev_coord (a : IVec S16777216 32) (i : S16777216.Idx) : ev a (i 0) = a i :=
  congrArg a (eq_ix1 i).symm

theorem v10_eq (a0 : IVec S16777216 32) (hx : InRange (ev a0) 640) (i : S16777216.Idx) :
    val_main_v10 (F := Ideal) a0 i = a0 i := by
  rw [val_main_v10_apply, val_main_v7_apply, val_main_v6_apply, val_main_c_2_apply, val_main_v9_apply]
  exact norm_id _ _ (by have := (hx (i 0)).1; rwa [ev_coord] at this)

theorem v15_eq (a1 : IVec S16777216 32) (hy : InRange (ev a1) 480) (i : S16777216.Idx) :
    val_main_v15 (F := Ideal) a1 i = a1 i := by
  rw [val_main_v15_apply, val_main_v12_apply, val_main_v11_apply, val_main_c_4_apply, val_main_v14_apply]
  exact norm_id _ _ (by have := (hy (i 0)).1; rwa [ev_coord] at this)

/-- Row e of the index array: column 0 is the first coordinate array's normalised word … -/
theorem idx_col0 (a0 a1 : IVec S16777216 32) (e : Fin 16777216) :
    val_main_v18 (F := Ideal) a0 a1 (ix2 e (0 : Fin 2)) = val_main_v10 (F := Ideal) a0 (ix1 e) := by
  unfold val_main_v18
  rw [concatenate_pair_apply_left (t := S16777216x2) (s₁ := S16777216x1) (s₂ := S16777216x1) 1 _ _ _
    (ix2 e (0 : Fin 2)) rfl (ix2 e (0 : Fin 1))
    (fun b => match b with | ⟨0, _⟩ => rfl | ⟨1, _⟩ => rfl), val_main_v16_apply]
  exact congrArg _ (funext fun a => match a with | ⟨0, _⟩ => rfl)

/-- … and column 1 the second's. -/
theorem idx_col1 (a0 a1 : IVec S16777216 32) (e : Fin 16777216) :
    val_main_v18 (F := Ideal) a0 a1 (ix2 e (1 : Fin 2)) = val_main_v15 (F := Ideal) a1 (ix1 e) := by
  unfold val_main_v18
  rw [concatenate_pair_apply_right (t := S16777216x2) (s₁ := S16777216x1) (s₂ := S16777216x1) 1 _ _ _
    (ix2 e (1 : Fin 2)) rfl rfl (ix2 e (0 : Fin 1))
    (fun b => match b with | ⟨0, _⟩ => fun _ => rfl | ⟨1, _⟩ => fun h => absurd rfl h) rfl, val_main_v17_apply]
  exact congrArg _ (funext fun a => match a with | ⟨0, _⟩ => rfl)

/-- The second scatter's index array is the first's, spelt again. -/
theorem v32_eq (a0 a1 : IVec S16777216 32) : val_main_v32 (F := Ideal) a0 a1 = val_main_v18 (F := Ideal) a0 a1 := rfl

/-- The first scatter's update of an event: 1 when its polarity word is zero, else 0. -/
theorem v3_eq (a2 : IVec S16777216 32) (i : S16777216.Idx) :
    val_main_v3 (F := Ideal) a2 i = if a2 i = 0#32 then 1#32 else 0#32 := by
  rw [val_main_v3_apply, val_main_v2_apply, val_main_v1_apply, val_main_c_0_apply]
  show (BitVec.ofBool (a2 i == 0#32)).setWidth 32 = _
  by_cases h : a2 i = 0#32
  · rw [if_pos h, h]; rfl
  · rw [if_neg h, show (a2 i == 0#32) = false from by simpa using h]; rfl

/-- The second scatter's update of an event: 0 when its polarity word is zero, else 1. -/
theorem v5_eq (a2 : IVec S16777216 32) (i : S16777216.Idx) :
    val_main_v5 (F := Ideal) a2 i = if a2 i = 0#32 then 0#32 else 1#32 := by
  rw [val_main_v5_apply, val_main_v4_apply, val_main_c_1_apply, v3_eq]
  by_cases h : a2 i = 0#32
  · rw [if_pos h, if_pos h]; rfl
  · rw [if_neg h, if_neg h]; rfl

/-- With the coordinate words in range, the update of event e lands on pixel p exactly when event e lies at p. -/
theorem target_iff (a0 a1 : IVec S16777216 32) (hx : InRange (ev a0) 640) (hy : InRange (ev a1) 480)
    (e : Fin 16777216) (p : S640x480.Idx) :
    D.resultIdx? (ix1 e) (val_main_v18 (F := Ideal) a0 a1) = some p ↔ hits (ev a0) (ev a1) (p 0).val (p 1).val e := by
  have c0 : val_main_v18 (F := Ideal) a0 a1 (ix2 e (0 : Fin 2)) = ev a0 e :=
    (idx_col0 a0 a1 e).trans (v10_eq a0 hx (ix1 e))
  have c1 : val_main_v18 (F := Ideal) a0 a1 (ix2 e (1 : Fin 2)) = ev a1 e :=
    (idx_col1 a0 a1 e).trans (v15_eq a1 hy (ix1 e))
  have hx' := hx e; have hy' := hy e
  rw [resultIdx_iff e _ (by rw [c0]; exact hx') (by rw [c1]; exact hy') p, c0, c1]
  unfold hits
  have e0 := BitVec.toInt_eq_toNat_cond (ev a0 e); have e1 := BitVec.toInt_eq_toNat_cond (ev a1 e)
  have l0 := (ev a0 e).isLt; have l1 := (ev a1 e).isLt
  constructor
  · rintro ⟨h0, h1⟩
    constructor
    · split at e0 <;> omega
    · split at e1 <;> omega
  · rintro ⟨h0, h1⟩
    constructor
    · split at e0 <;> omega
    · split at e1 <;> omega

/-! ## The two masks -/

theorem cntNeg_pos_iff {n : ℕ} (x y q : Fin n → BitVec 32) (r w : ℕ) :
    0 < cntNeg x y q r w ↔ ∃ e, hits x y r w e ∧ q e = 0#32 := by
  unfold cntNeg
  rw [Finset.card_pos, Finset.filter_nonempty_iff]
  simp

theorem cntPos_pos_iff {n : ℕ} (x y q : Fin n → BitVec 32) (r w : ℕ) :
    0 < cntPos x y q r w ↔ ∃ e, hits x y r w e ∧ q e ≠ 0#32 := by
  unfold cntPos
  rw [Finset.card_pos, Finset.filter_nonempty_iff]
  simp

/-- The first scatter at pixel p: 1 when some event with polarity word zero lies there. -/
theorem negmask_eq (a0 a1 a2 : IVec S16777216 32) (hx : InRange (ev a0) 640) (hy : InRange (ev a1) 480)
    (p : S640x480.Idx) :
    val_main_v19 (F := Ideal) a0 a1 a2 p = bit32 (0 < cntNeg (ev a0) (ev a1) (ev a2) (p 0).val (p 1).val) := by
  unfold val_main_v19 bit32
  refine ScatterFold.scatter_maxsi_bits_apply D _ _ _ p ?_ ?_ _ ?_
  · rw [val_main_v0_apply, val_main_c_apply]
  · intro j; rw [v3_eq]; by_cases h : a2 j = 0#32
    · rw [if_pos h]; exact Or.inr rfl
    · rw [if_neg h]; exact Or.inl rfl
  · rw [cntNeg_pos_iff]
    constructor
    · rintro ⟨e, he, hq⟩
      refine ⟨ix1 e, (target_iff a0 a1 hx hy e p).2 he, ?_⟩
      rw [v3_eq]; exact if_pos hq
    · rintro ⟨j, hj, hq⟩
      obtain ⟨e, rfl⟩ : ∃ e : Fin 16777216, j = ix1 e := ⟨j 0, eq_ix1 j⟩
      refine ⟨e, (target_iff a0 a1 hx hy e p).1 hj, ?_⟩
      rw [v3_eq] at hq
      show a2 (ix1 e) = 0#32
      by_contra h
      rw [if_neg h] at hq
      exact absurd hq (by decide)

/-- The second scatter at pixel p: 1 when some event with a nonzero polarity word lies there. -/
theorem posmask_eq (a0 a1 a2 : IVec S16777216 32) (hx : InRange (ev a0) 640) (hy : InRange (ev a1) 480)
    (p : S640x480.Idx) :
    val_main_v33 (F := Ideal) a0 a1 a2 p = bit32 (0 < cntPos (ev a0) (ev a1) (ev a2) (p 0).val (p 1).val) := by
  unfold val_main_v33 bit32
  rw [v32_eq]
  refine ScatterFold.scatter_maxsi_bits_apply D _ _ _ p ?_ ?_ _ ?_
  · rw [val_main_v0_apply, val_main_c_apply]
  · intro j; rw [v5_eq]; by_cases h : a2 j = 0#32
    · rw [if_pos h]; exact Or.inl rfl
    · rw [if_neg h]; exact Or.inr rfl
  · rw [cntPos_pos_iff]
    constructor
    · rintro ⟨e, he, hq⟩
      refine ⟨ix1 e, (target_iff a0 a1 hx hy e p).2 he, ?_⟩
      rw [v5_eq]; exact if_neg hq
    · rintro ⟨j, hj, hq⟩
      obtain ⟨e, rfl⟩ : ∃ e : Fin 16777216, j = ix1 e := ⟨j 0, eq_ix1 j⟩
      refine ⟨e, (target_iff a0 a1 hx hy e p).1 hj, ?_⟩
      rw [v5_eq] at hq
      show a2 (ix1 e) ≠ 0#32
      intro h
      rw [if_pos h] at hq
      exact absurd hq (by decide)

/-! ## The result -/

/-- With every coordinate word inside its axis, the reference's result is the specification's function of the
    four argument arrays. -/
theorem ref_eq_G (a0 a1 a2 : IVec S16777216 32) (a3 : FVec Ideal S640x480 .f32)
    (hx : InRange (ev a0) 640) (hy : InRange (ev a1) 480) :
    refTerm a0 a1 a2 a3 = G a0 a1 a2 a3 := by
  rw [refTerm_eq_val]
  funext j
  rw [val_main_v41_apply, val_main_v37_apply, val_main_v40_apply, val_main_v36_apply, val_main_v34_apply,
    val_main_v38_apply, val_main_v35_apply, val_main_v39_apply, val_main_cst_apply, val_main_cst_10_apply,
    negmask_eq a0 a1 a2 hx hy, posmask_eq a0 a1 a2 hx hy]
  rfl

end Cert.Hist.Ref

end
-- ==== Proof.PreRange.lean ====
/-
  The printed precondition, read back as a statement about the coordinate words.

  The predicate is a conjunction of three "for all" claims, each a reduction by `and` of a one-bit array down
  to a single bit: every picture value is finite, every first coordinate `x` satisfies `0 ≤ x` and `x < 640`
  as SIGNED words, every second coordinate `y` satisfies `0 ≤ y` and `y < 480` as signed words. If the
  predicate's one bit is 1 then each of the three reductions is 1 (a one-bit `and` is 1 only when both operands
  are), a reduction by `and` that is 1 met a 1 at every element, and an element of a signed comparison being 1
  is the comparison of the two words' signed values. Nothing is evaluated over the events: the argument is the
  same at every event.
-/
import proofs.«419753_j13322988552663_3_alg».proof.Pre_finite_inputs
import proofs.«419753_j13322988552663_3_alg».proof.Proof.HistSpec
import Idealize.ShloMosaic.Lib.ReduceAll
import Idealize.ShloMosaic.Lib.StableHlo.Predicate

namespace Cert.Hist.Pre

open Idealize.ShloMosaic Cert.Pre_finite_inputs Cert.Pre_finite_inputs.Facts

variable [Cert.Pre_finite_inputs.Facts]

/-- The rank-0 shape has exactly one index. -/
instance : Subsingleton S_.Idx := ⟨fun a b => funext fun d => d.elim0⟩

/-- ONE COORDINATE ARRAY. If the `and` over all events of `[0 ≤ a e] ∧ [a e < N]` (signed comparisons against
    the two constants spread over the events) is 1, then every word of `a` lies in `[0, N)` as a signed
    integer. `N` is below 2³¹, so the word `N` reads as the integer `N`. -/
theorem inRange_of_all (a : IVec S16777216 32) (N : ℕ) (hN : N < 2 ^ 31) (init : IVec S_ 1) (j : S_.Idx)
    (h : Host.reduce IntOp.andi
          (andi (cmpi .sge a (broadcastInDim S16777216 ![] bcast_S_S16777216 (constantI S_ 32 0#32)))
                (cmpi .slt a (broadcastInDim S16777216 ![] bcast_S_S16777216 (constantI S_ 32 (BitVec.ofNat 32 N)))))
          init reducesTo_S16777216_S_d0 h_S_ j = 1#1) :
    Cert.Hist.InRange (Cert.Hist.ev a) N := by
  intro e
  -- the element of the reduced array at event e is 1
  have he := Host.reduce_andi_all _ init reducesTo_S16777216_S_d0 h_S_ j h (ValueIdx.ix1 e)
  -- it is the `and` of the two comparison bits at e, the constants read at e being the constants
  have he' : IntOp.andi (IntOp.cmpi .sge (a (ValueIdx.ix1 e)) 0#32)
      (IntOp.cmpi .slt (a (ValueIdx.ix1 e)) (BitVec.ofNat 32 N)) = 1#1 := he
  obtain ⟨h1, h2⟩ := IntOp.andi_eq_one.1 he'
  have h1' := IntOp.cmpi_sge.1 h1
  have h2' := IntOp.cmpi_slt.1 h2
  rw [show (0#32 : BitVec 32).toInt = 0 from by decide] at h1'
  rw [StableHlo.Predicate.toInt_ofNat_small N hN] at h2'
  exact ⟨h1', h2'⟩

/-- THE PREDICATE DECODED. If the printed precondition holds (its one bit is 1) then the first coordinates lie in
    `[0, 640)` and the second in `[0, 480)`, as signed integers. The picture's finiteness conjunct is not used, so
    the statement holds over any float model. -/
theorem range_of_pre {F : FTy → Type} [FloatOps F] (a0 a1 a2 : IVec Cert.Pre_finite_inputs.S16777216 32)
    (a3 : FVec F Cert.Pre_finite_inputs.S640x480 .f32)
    (h : Cert.Pre_finite_inputs.fn (F := F) a0 a1 a2 a3 = fun _ => 1#1) :
    Cert.Hist.InRange (Cert.Hist.ev a0) 640 ∧ Cert.Hist.InRange (Cert.Hist.ev a1) 480 := by
  have h0 := congrFun h ValueIdx.ix0
  dsimp only [Cert.Pre_finite_inputs.fn, Cert.Pre_finite_inputs.fn_part1] at h0
  -- the outer `and`: (finite ∧ x in range) ∧ y in range
  obtain ⟨h10, h16⟩ := IntOp.andi_eq_one.1 h0
  obtain ⟨_, h9⟩ := IntOp.andi_eq_one.1 h10
  exact ⟨inRange_of_all a0 640 (by norm_num) _ _ h9, inRange_of_all a1 480 (by norm_num) _ _ h16⟩

end Cert.Hist.Pre
-- ==== Proof.lean ====
/-
  `Cert.Claim`: the event-histogram kernel against its scatter reference, over the extended reals, for index words in
  range of the 640x480 picture.

  Both programs return, at pixel `(r, w)`, `(pic (r, w) - 15·[some zero-polarity event lies there]) + 15·[some
  nonzero-polarity event lies there]` (Proof/HistSpec.lean's `G`). The kernel counts: per chunk of 2048 events two
  products of one-hot matrices give the counts at every pixel, an accumulator adds the chunks of each half of the event
  stream, a second pass adds the halves and compares with zero (Proof/KernelValue.lean over the runs in Proof/FrameKI*.lean).
  The reference keeps, pixel by pixel, the maximum of the 0/1 updates scattered there (Proof/RefValue.lean); with every
  index word in `[0, 640)` resp. `[0, 480)` its index normalisation is the identity, and the maximum is 1 exactly when
  the count is positive. The three frames: each region's body runs at every grid point from the invariant that names the
  accumulator's contents; the reference is straight-line host code.
-/
import proofs.«419753_j13322988552663_3_alg».proof.Defs
import proofs.«419753_j13322988552663_3_alg».proof.Proof.Gen.Kernel
import proofs.«419753_j13322988552663_3_alg».proof.Proof.Gen.KernelIdeal
import proofs.«419753_j13322988552663_3_alg».proof.Proof.Gen.ReferenceIdeal
import proofs.«419753_j13322988552663_3_alg».proof.Proof.Gen.Pre_finite_inputs
import proofs.«419753_j13322988552663_3_alg».proof.Proof.Gen.ReferenceIdeal.Run
import proofs.«419753_j13322988552663_3_alg».proof.Proof.FrameK
import proofs.«419753_j13322988552663_3_alg».proof.Proof.FrameKI
import proofs.«419753_j13322988552663_3_alg».proof.Proof.KernelValue
import proofs.«419753_j13322988552663_3_alg».proof.Proof.RefValue
import proofs.«419753_j13322988552663_3_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the (agreeing) argument arrays: the kernel's always, the reference's
    because the precondition puts every index word in range. -/
theorem algebraic : Cert.algebraic_KernelIdeal_ReferenceIdeal := by
  intro m ρ m' ρ' hpre hagree
  refine ⟨fun c => Cert.Hist.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Hist.Ker.kernel_eq_G m c), (h c).2⟩) (Cert.KernelIdeal.Gen.run_value m ρ)
  · refine (θ_run Cert.ReferenceIdeal.defs _ _).mono (fun _ h c => ⟨(h c).1.trans ?_, (h c).2⟩)
      (Cert.ReferenceIdeal.Value.run (F := Ideal) m' ρ')
    obtain ⟨hx, hy⟩ := Cert.Hist.Pre.range_of_pre (F := Ideal) _ _ _ _ (hpre c)
    rw [(hagree c).1, (hagree c).2.1, (hagree c).2.2.1, (hagree c).2.2.2]
    exact Cert.Hist.Ref.ref_eq_G _ _ _ _ hx hy

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
